-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x8 : Shape := ⟨2, ![128, 8]⟩
abbrev S8 : Shape := ⟨1, ![8]⟩
abbrev S8x256 : Shape := ⟨2, ![8, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256x1 .f32) (main_arg9 : FVec F S1 .f32) (main_v33 : IVec S_ 1) : IVec S_ 1 :=
  let main_v34 : FVec F S256x1 .f32 := Host.absf main_arg8
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x1 .f32) (main_arg9 : FVec F S1 .f32) (main_v13 : IVec S_ 1) (main_v16 : IVec S8x256 1) : IVec S_ 1 :=
  let main_c_5 : IVec S_ 1 := constantI S_ 1 1#1
  let main_v17 : IVec S_ 1 := (fun x v => Host.reduce IntOp.andi x v reducesTo_S8x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x800000 32) (main_arg2 : FVec F S128x8 .f32) (main_arg3 : FVec F S8 .f32) (main_arg4 : FVec F S8x256 .f32) (main_arg5 : FVec F S256 .f32) (main_arg6 : FVec F S256x256 .f32) (main_arg7 : FVec F S256 .f32) (main_arg8 : FVec F S256x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x8 .f32 := Host.absf main_arg2
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x256 .f32 := Host.absf main_arg4
  let main_cst_4 : FVec F S_ .f32 := constant S_ .f32 0x7F800000#32
  let main_v15 : FVec F S8x256 .f32 := broadcastInDim S8x256 ![] bcast_S_S8x256 main_cst_4
  let main_v16 : IVec S8x256 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x800000 : Shape := ⟨2, ![2, 800000]⟩
abbrev S128x8 : Shape := ⟨2, ![128, 8]⟩
abbrev S8 : Shape := ⟨1, ![8]⟩
abbrev S8x256 : Shape := ⟨2, ![8, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S100000 : Shape := ⟨1, ![100000]⟩
abbrev S900000 : Shape := ⟨1, ![900000]⟩
abbrev S_ : Shape := ⟨0, ![]⟩
abbrev S900000x1 : Shape := ⟨2, ![900000, 1]⟩
abbrev S100000x1 : Shape := ⟨2, ![100000, 1]⟩
abbrev S100000x8 : Shape := ⟨2, ![100000, 8]⟩
abbrev S5000x128 : Shape := ⟨2, ![5000, 128]⟩
abbrev S5000x1 : Shape := ⟨2, ![5000, 1]⟩
abbrev S5000x8 : Shape := ⟨2, ![5000, 8]⟩
abbrev S900000x8 : Shape := ⟨2, ![900000, 8]⟩
abbrev S100000x256 : Shape := ⟨2, ![100000, 256]⟩
abbrev S5000x256 : Shape := ⟨2, ![5000, 256]⟩
abbrev S1x8 : Shape := ⟨2, ![1, 8]⟩
abbrev S900000x256 : Shape := ⟨2, ![900000, 256]⟩
abbrev S4000x256 : Shape := ⟨2, ![4000, 256]⟩
abbrev S4000x1 : Shape := ⟨2, ![4000, 1]⟩
abbrev S1x256 : Shape := ⟨2, ![1, 256]⟩
abbrev S1x1 : Shape := ⟨2, ![1, 1]⟩

abbrev nBuf : Space → Nat
  | .hbm => 61
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x8, .f32⟩
  | .hbm, ⟨3, _⟩ => ⟨S8, .f32⟩
  | .hbm, ⟨4, _⟩ => ⟨S8x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S100000, .i32⟩
  | .hbm, ⟨15, _⟩ => ⟨S900000, .i32⟩
  | .hbm, ⟨16, _⟩ => ⟨S900000, .i32⟩
  | .hbm, ⟨17, _⟩ => ⟨S_, .f32⟩
  | .hbm, ⟨18, _⟩ => ⟨S900000, .f32⟩
  | .hbm, ⟨19, _⟩ => ⟨S_, .f32⟩
  | .hbm, ⟨20, _⟩ => ⟨S100000, .f32⟩
  | .hbm, ⟨21, _⟩ => ⟨S900000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x8, .f32⟩
  | .hbm, ⟨33, _⟩ => ⟨S_, .i32⟩
  | .hbm, ⟨34, _⟩ => ⟨S900000, .i32⟩
  | .hbm, ⟨35, _⟩ => ⟨S900000, .i1⟩
  | .hbm, ⟨36, _⟩ => ⟨S_, .i32⟩
  | .hbm, ⟨37, _⟩ => ⟨S900000, .i32⟩
  | .hbm, ⟨38, _⟩ => ⟨S900000, .i32⟩
  | .hbm, ⟨39, _⟩ => ⟨S900000, .i32⟩
  | .hbm, ⟨40, _⟩ => ⟨S900000x1, .i32⟩
  | .hbm, ⟨41, _⟩ => ⟨S900000x8, .f32⟩
  | .hbm, ⟨42, _⟩ => ⟨S_, .f32⟩
  | .hbm, ⟨43, _⟩ => ⟨S100000x8, .f32⟩
  | .hbm, ⟨44, _⟩ => ⟨S900000x1, .i32⟩
  | .hbm, ⟨45, _⟩ => ⟨S100000x8, .f32⟩
  | .hbm, ⟨46, _⟩ => ⟨S100000x256, .f32⟩
  | .hbm, ⟨47, _⟩ => ⟨S_, .i32⟩
  | .hbm, ⟨48, _⟩ => ⟨S900000, .i32⟩
  | .hbm, ⟨49, _⟩ => ⟨S900000, .i1⟩
  | .hbm, ⟨50, _⟩ => ⟨S_, .i32⟩
  | .hbm, ⟨51, _⟩ => ⟨S900000, .i32⟩
  | .hbm, ⟨52, _⟩ => ⟨S900000, .i32⟩
  | .hbm, ⟨53, _⟩ => ⟨S900000, .i32⟩
  | .hbm, ⟨54, _⟩ => ⟨S900000x1, .i32⟩
  | .hbm, ⟨55, _⟩ => ⟨S900000x256, .f32⟩
  | .hbm, ⟨56, _⟩ => ⟨S_, .f32⟩
  | .hbm, ⟨57, _⟩ => ⟨S100000x256, .f32⟩
  | .hbm, ⟨58, _⟩ => ⟨S900000x1, .i32⟩
  | .hbm, ⟨59, _⟩ => ⟨S100000x256, .f32⟩
  | .hbm, ⟨60, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x8, .f32⟩
  | .local _ .vmem, ⟨3, _⟩ => ⟨S5000x1, .f32⟩
  | .local _ .vmem, ⟨4, _⟩ => ⟨S5000x1, .f32⟩
  | .local _ .vmem, ⟨5, _⟩ => ⟨S5000x8, .f32⟩
  | .local _ .vmem, ⟨6, _⟩ => ⟨S5000x8, .f32⟩
  | .local _ .vmem, ⟨7, _⟩ => ⟨S5000x8, .f32⟩
  | .local _ .vmem, ⟨8, _⟩ => ⟨S5000x8, .f32⟩
  | .local _ .vmem, ⟨9, _⟩ => ⟨S5000x1, .f32⟩
  | .local _ .vmem, ⟨10, _⟩ => ⟨S5000x1, .f32⟩
  | .local _ .vmem, ⟨11, _⟩ => ⟨S8, .f32⟩
  | .local _ .vmem, ⟨12, _⟩ => ⟨S8x256, .f32⟩
  | .local _ .vmem, ⟨13, _⟩ => ⟨S5000x256, .f32⟩
  | .local _ .vmem, ⟨14, _⟩ => ⟨S5000x256, .f32⟩
  | .local _ .vmem, ⟨15, _⟩ => ⟨S4000x256, .f32⟩
  | .local _ .vmem, ⟨16, _⟩ => ⟨S4000x256, .f32⟩
  | .local _ .vmem, ⟨17, _⟩ => ⟨S4000x1, .f32⟩
  | .local _ .vmem, ⟨18, _⟩ => ⟨S4000x1, .f32⟩
  | .local _ .vmem, ⟨19, _⟩ => ⟨S256, .f32⟩
  | .local _ .vmem, ⟨20, _⟩ => ⟨S256x256, .f32⟩
  | .local _ .vmem, ⟨21, _⟩ => ⟨S256, .f32⟩
  | .local _ .vmem, ⟨22, _⟩ => ⟨S256x1, .f32⟩
  | .local _ .vmem, ⟨23, _⟩ => ⟨S1, .f32⟩
  | .local _ .vmem, ⟨24, _⟩ => ⟨S4000x1, .f32⟩
  | .local _ .vmem, ⟨25, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x8_S128x8_0_0 : ∀ a, (![0, 0] : Fin 2 → Nat) a + S128x8.size a ≤ S128x8.size a
  h_S128x8 : 0 < S128x8.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x8 : S5000x1.Broadcasts S5000x8
  inb_S5000x8_S5000x8_0_0 : ∀ a, (![0, 0] : Fin 2 → Nat) a + S5000x8.size a ≤ S5000x8.size a
  h_S5000x8 : 0 < S5000x8.numel
  bcast_S_S100000x8 : S_.BroadcastsInDim S100000x8 (![] : Fin 0 → Fin S100000x8.rank)
  shapeCasts_S5000x8_S5000x8 : S5000x8.ShapeCasts S5000x8
  inb_S8_S8_0 : ∀ a, (![0] : Fin 1 → Nat) a + S8.size a ≤ S8.size a
  h_S8 : 0 < S8.numel
  shapeCasts_S8_S1x8 : S8.ShapeCasts S1x8
  broadcasts_S1x8_S5000x8 : S1x8.Broadcasts S5000x8
  inb_S8x256_S8x256_0_0 : ∀ a, (![0, 0] : Fin 2 → Nat) a + S8x256.size a ≤ S8x256.size a
  h_S8x256 : 0 < S8x256.numel
  broadcasts_S5000x1_S5000x256 : S5000x1.Broadcasts S5000x256
  inb_S5000x256_S5000x256_0_0 : ∀ a, (![0, 0] : Fin 2 → Nat) a + S5000x256.size a ≤ S5000x256.size a
  h_S5000x256 : 0 < S5000x256.numel
  bcast_S_S100000x256 : S_.BroadcastsInDim S100000x256 (![] : Fin 0 → Fin S100000x256.rank)
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x256 : S4000x1.Broadcasts S4000x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  scatter_S100000_S900000x1_S900000_n_0_0_1_wf : ScatterDims.WF S100000 S900000x1 S900000 [] [0] [0] 1
  dot_S5000x128_S128x8_S5000x8_1_0_0_1_n_n_wf : DotDims.WF S5000x128 S128x8 S5000x8 [1] [0] [0] [1] [] []
  gather_S100000x8_S900000x1_S900000x8_1_0_n_n_0_1_18_wf : GatherDims.WF S100000x8 S900000x1 S900000x8 [1] [0] [] [0] [] 1 ![1, 8]
  scatter_S100000x8_S900000x1_S900000x8_1_0_0_1_wf : ScatterDims.WF S100000x8 S900000x1 S900000x8 [1] [0] [0] 1
  dot_S5000x8_S8x256_S5000x256_1_0_0_1_n_n_wf : DotDims.WF S5000x8 S8x256 S5000x256 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S4000x256_S256x256_S4000x256_1_0_0_1_n_n_wf : DotDims.WF S4000x256 S256x256 S4000x256 [1] [0] [0] [1] [] []
  dot_S4000x256_S256x1_S4000x1_1_0_0_1_n_n_wf : DotDims.WF S4000x256 S256x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8.size a ≤ S128x8.size a
  hwx0_1 : ∀ i : grid0.Coords, EltTy.bits .f32 = 32 ∨ (Rect.block (s := S128x8) S128x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x8.size a ≤ S100000x8.size a
  hwx0_3 : ∀ i : grid0.Coords, EltTy.bits .f32 = 32 ∨ (Rect.block (s := S100000x8) S5000x8.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x8.size a ≤ S100000x8.size a
  hwx1_0 : ∀ i : grid1.Coords, EltTy.bits .f32 = 32 ∨ (Rect.block (s := S100000x8) S5000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8.size a ≤ S8.size a
  hwx1_2 : ∀ i : grid1.Coords, EltTy.bits .f32 = 32 ∨ (Rect.block (s := S8) S8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x256.size a ≤ S8x256.size a
  hwx1_3 : ∀ i : grid1.Coords, EltTy.bits .f32 = 32 ∨ (Rect.block (s := S8x256) S8x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S100000x256.size a
  hwx1_4 : ∀ i : grid1.Coords, EltTy.bits .f32 = 32 ∨ (Rect.block (s := S100000x256) S5000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S100000x256.size a
  hwx2_0 : ∀ i : grid2.Coords, EltTy.bits .f32 = 32 ∨ (Rect.block (s := S100000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x1.size a ≤ S256x1.size a
  hwx2_5 : ∀ i : grid2.Coords, EltTy.bits .f32 = 32 ∨ (Rect.block (s := S256x1) S256x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1.size a ≤ S1.size a
  hwx2_6 : ∀ i : grid2.Coords, EltTy.bits .f32 = 32 ∨ (Rect.block (s := S1) S1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x1.size a ≤ S100000x1.size a
  hwx2_7 : ∀ i : grid2.Coords, EltTy.bits .f32 = 32 ∨ (Rect.block (s := S100000x1) S4000x1.size (cc2_transform_7 i) (hinb2_7 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf
def gather_S100000x8_S900000x1_S900000x8_1_0_n_n_0_1_18 : GatherDims S100000x8 S900000x1 S900000x8 where
  offsetDims := [1]
  collapsedSliceDims := [0]
  operandBatchingDims := []
  startIndicesBatchingDims := []
  startIndexMap := [0]
  indexVectorDim := 1
  sliceSizes := ![1, 8]
  wf := gather_S100000x8_S900000x1_S900000x8_1_0_n_n_0_1_18_wf
def scatter_S100000x8_S900000x1_S900000x8_1_0_0_1 : ScatterDims S100000x8 S900000x1 S900000x8 where
  updateWindowDims := [1]
  insertedWindowDims := [0]
  scatterDimsToOperandDims := [0]
  indexVectorDim := 1
  wf := scatter_S100000x8_S900000x1_S900000x8_1_0_0_1_wf
def dot_S5000x8_S8x256_S5000x256_1_0_0_1_n_n : DotDims S5000x8 S8x256 S5000x256 where
  lhsContracting := [1]
  rhsContracting := [0]
  lhsNonContracting := [0]
  rhsNonContracting := [1]
  lhsBatch := []
  rhsBatch := []
  wf := dot_S5000x8_S8x256_S5000x256_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x1_S4000x1_1_0_0_1_n_n : DotDims S4000x256 S256x1 S4000x1 where
  lhsContracting := [1]
  rhsContracting := [0]
  lhsNonContracting := [0]
  rhsNonContracting := [1]
  lhsBatch := []
  rhsBatch := []
  wf := dot_S4000x256_S256x1_S4000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S8x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S256x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v38) S4000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x8 : Shape := ⟨2, ![128, 8]⟩
abbrev S8 : Shape := ⟨1, ![8]⟩
abbrev S8x256 : Shape := ⟨2, ![8, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S100000x8 : Shape := ⟨2, ![100000, 8]⟩
abbrev S100000 : Shape := ⟨1, ![100000]⟩
abbrev S900000 : Shape := ⟨1, ![900000]⟩
abbrev S_ : Shape := ⟨0, ![]⟩
abbrev S900000x1 : Shape := ⟨2, ![900000, 1]⟩
abbrev S900000x8 : Shape := ⟨2, ![900000, 8]⟩
abbrev S1x8 : Shape := ⟨2, ![1, 8]⟩
abbrev S100000x256 : Shape := ⟨2, ![100000, 256]⟩
abbrev S900000x256 : Shape := ⟨2, ![900000, 256]⟩
abbrev S1x256 : Shape := ⟨2, ![1, 256]⟩
abbrev S100000x1 : Shape := ⟨2, ![100000, 1]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x800000, .i32⟩
  | 2 => ⟨S128x8, .f32⟩
  | 3 => ⟨S8, .f32⟩
  | 4 => ⟨S8x256, .f32⟩
  | 5 => ⟨S256, .f32⟩
  | 6 => ⟨S256x256, .f32⟩
  | 7 => ⟨S256, .f32⟩
  | 8 => ⟨S256x1, .f32⟩
  | 9 => ⟨S1, .f32⟩
  | 10 => ⟨S1x800000, .i32⟩
  | 11 => ⟨S800000, .i32⟩
  | 12 => ⟨S1x800000, .i32⟩
  | 13 => ⟨S800000, .i32⟩
  | 14 => ⟨S100000x8, .f32⟩
  | 15 => ⟨S100000, .i32⟩
  | 16 => ⟨S900000, .i32⟩
  | 17 => ⟨S900000, .i32⟩
  | 18 => ⟨S_, .f32⟩
  | 19 => ⟨S900000, .f32⟩
  | 20 => ⟨S_, .f32⟩
  | 21 => ⟨S100000, .f32⟩
  | 22 => ⟨S900000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S900000, .i32⟩
  | 34 => ⟨S900000, .i1⟩
  | 35 => ⟨S_, .i32⟩
  | 36 => ⟨S900000, .i32⟩
  | 37 => ⟨S900000, .i32⟩
  | 38 => ⟨S900000, .i32⟩
  | 39 => ⟨S900000x1, .i32⟩
  | 40 => ⟨S900000, .f32⟩
  | 41 => ⟨S_, .i32⟩
  | 42 => ⟨S900000, .i32⟩
  | 43 => ⟨S900000, .i1⟩
  | 44 => ⟨S_, .i32⟩
  | 45 => ⟨S900000, .i32⟩
  | 46 => ⟨S900000, .i32⟩
  | 47 => ⟨S900000, .i32⟩
  | 48 => ⟨S900000x1, .i32⟩
  | 49 => ⟨S900000, .f32⟩
  | 50 => ⟨S900000, .f32⟩
  | 51 => ⟨S_, .i32⟩
  | 52 => ⟨S900000, .i32⟩
  | 53 => ⟨S900000, .i1⟩
  | 54 => ⟨S_, .i32⟩
  | 55 => ⟨S900000, .i32⟩
  | 56 => ⟨S900000, .i32⟩
  | 57 => ⟨S900000, .i32⟩
  | 58 => ⟨S900000x1, .i32⟩
  | 59 => ⟨S900000x8, .f32⟩
  | 60 => ⟨S900000x1, .f32⟩
  | 61 => ⟨S900000x8, .f32⟩
  | 62 => ⟨S900000x8, .f32⟩
  | 63 => ⟨S_, .f32⟩
  | 64 => ⟨S100000x8, .f32⟩
  | 65 => ⟨S900000x1, .i32⟩
  | 66 => ⟨S100000x8, .f32⟩
  | 67 => ⟨S1x8, .f32⟩
  | 68 => ⟨S100000x8, .f32⟩
  | 69 => ⟨S100000x8, .f32⟩
  | 70 => ⟨S_, .f32⟩
  | 71 => ⟨S100000x8, .f32⟩
  | 72 => ⟨S100000x8, .f32⟩
  | 73 => ⟨S100000x256, .f32⟩
  | 74 => ⟨S100000, .i32⟩
  | 75 => ⟨S900000, .i32⟩
  | 76 => ⟨S900000, .i32⟩
  | 77 => ⟨S_, .f32⟩
  | 78 => ⟨S900000, .f32⟩
  | 79 => ⟨S_, .f32⟩
  | 80 => ⟨S100000, .f32⟩
  | 81 => ⟨S900000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S900000, .i32⟩
  | 93 => ⟨S900000, .i1⟩
  | 94 => ⟨S_, .i32⟩
  | 95 => ⟨S900000, .i32⟩
  | 96 => ⟨S900000, .i32⟩
  | 97 => ⟨S900000, .i32⟩
  | 98 => ⟨S900000x1, .i32⟩
  | 99 => ⟨S900000, .f32⟩
  | 100 => ⟨S_, .i32⟩
  | 101 => ⟨S900000, .i32⟩
  | 102 => ⟨S900000, .i1⟩
  | 103 => ⟨S_, .i32⟩
  | 104 => ⟨S900000, .i32⟩
  | 105 => ⟨S900000, .i32⟩
  | 106 => ⟨S900000, .i32⟩
  | 107 => ⟨S900000x1, .i32⟩
  | 108 => ⟨S900000, .f32⟩
  | 109 => ⟨S900000, .f32⟩
  | 110 => ⟨S_, .i32⟩
  | 111 => ⟨S900000, .i32⟩
  | 112 => ⟨S900000, .i1⟩
  | 113 => ⟨S_, .i32⟩
  | 114 => ⟨S900000, .i32⟩
  | 115 => ⟨S900000, .i32⟩
  | 116 => ⟨S900000, .i32⟩
  | 117 => ⟨S900000x1, .i32⟩
  | 118 => ⟨S900000x256, .f32⟩
  | 119 => ⟨S900000x1, .f32⟩
  | 120 => ⟨S900000x256, .f32⟩
  | 121 => ⟨S900000x256, .f32⟩
  | 122 => ⟨S_, .f32⟩
  | 123 => ⟨S100000x256, .f32⟩
  | 124 => ⟨S900000x1, .i32⟩
  | 125 => ⟨S100000x256, .f32⟩
  | 126 => ⟨S1x256, .f32⟩
  | 127 => ⟨S100000x256, .f32⟩
  | _ => ⟨S100000x128, .f32⟩

abbrev hbmTy0_1 (i : Nat) : BufTy := match i % 128 with
  | 0 => ⟨S100000x256, .f32⟩
  | 1 => ⟨S100000x256, .f32⟩
  | 2 => ⟨S1x256, .f32⟩
  | 3 => ⟨S100000x256, .f32⟩
  | 4 => ⟨S100000x256, .f32⟩
  | 5 => ⟨S_, .f32⟩
  | 6 => ⟨S100000x256, .f32⟩
  | 7 => ⟨S100000x256, .f32⟩
  | 8 => ⟨S100000x1, .f32⟩
  | 9 => ⟨S1x1, .f32⟩
  | 10 => ⟨S100000x1, .f32⟩
  | 11 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_c_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x8_0_1 : S900000x1.BroadcastsInDim S900000x8 (![0, 1] : Fin 2 → Fin S900000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x8_S100000x8_1_0_0_1_n_n_wf : DotDims.WF S100000x128 S128x8 S100000x8 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x8_S900000x1_S900000x8_1_0_n_n_0_1_18_wf : GatherDims.WF S100000x8 S900000x1 S900000x8 [1] [0] [] [0] [] 1 ![1, 8]
  scatter_S100000x8_S900000x1_S900000x8_1_0_0_1_wf : ScatterDims.WF S100000x8 S900000x1 S900000x8 [1] [0] [0] 1
  dot_S100000x8_S8x256_S100000x256_1_0_0_1_n_n_wf : DotDims.WF S100000x8 S8x256 S100000x256 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S100000x256_S256x256_S100000x256_1_0_0_1_n_n_wf : DotDims.WF S100000x256 S256x256 S100000x256 [1] [0] [0] [1] [] []
  dot_S100000x256_S256x1_S100000x1_1_0_0_1_n_n_wf : DotDims.WF S100000x256 S256x1 S100000x1 [1] [0] [0] [1] [] []

variable [Facts₀]

def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x8_S900000x1_S900000x8_1_0_n_n_0_1_18 : GatherDims S100000x8 S900000x1 S900000x8 where
  offsetDims := [1]
  collapsedSliceDims := [0]
  operandBatchingDims := []
  startIndicesBatchingDims := []
  startIndexMap := [0]
  indexVectorDim := 1
  sliceSizes := ![1, 8]
  wf := gather_S100000x8_S900000x1_S900000x8_1_0_n_n_0_1_18_wf
def scatter_S100000x8_S900000x1_S900000x8_1_0_0_1 : ScatterDims S100000x8 S900000x1 S900000x8 where
  updateWindowDims := [1]
  insertedWindowDims := [0]
  scatterDimsToOperandDims := [0]
  indexVectorDim := 1
  wf := scatter_S100000x8_S900000x1_S900000x8_1_0_0_1_wf
def dot_S100000x8_S8x256_S100000x256_1_0_0_1_n_n : DotDims S100000x8 S8x256 S100000x256 where
  lhsContracting := [1]
  rhsContracting := [0]
  lhsNonContracting := [0]
  rhsNonContracting := [1]
  lhsBatch := []
  rhsBatch := []
  wf := dot_S100000x8_S8x256_S100000x256_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.KernelChain.lean ====
/-
  The kernel program's host side, stretch by stretch.

  Between its three pallas_calls the program computes, from the edge list alone, the messages' source and destination
  words (the two rows of the edge list, each followed by one self-loop per node), every node's degree (ones
  accumulated by the destination words) and factor (the reciprocal square root of a positive degree, else zero), and,
  after each of the first two calls, the aggregation of the call's result: its rows gathered by the wrapped source
  words and accumulated by the destination words. Each fact below says what one stretch of host operations leaves in
  one buffer, from ANY contents the stretch starts from; the second half instantiates them along the run.
-/
import proofs.«424020_j46316927320529_3_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]

/-! ## The values the host computes -/

/-- The messages' source words: the edge list's first row, then the node numbers. -/
def srcT (a1 : (⟨S2x800000, .i32⟩ : BufTy).Contents (Elt F)) : (⟨S900000, .i32⟩ : BufTy).Contents (Elt F) :=
  concatenate S900000 0
    [⟨S800000, shapeCast S800000 (extractStridedSlice S1x800000 ![0, 0] a1 slices_S2x800000_S1x800000_0_0) shapeCasts_S1x800000_S800000⟩,
      ⟨S100000, iotaInDim S100000 32 0⟩] concatenates_S800000_S100000_S900000_d0

/-- The messages' destination words: the edge list's second row, then the node numbers. -/
def dstT (a1 : (⟨S2x800000, .i32⟩ : BufTy).Contents (Elt F)) : (⟨S900000, .i32⟩ : BufTy).Contents (Elt F) :=
  concatenate S900000 0
    [⟨S800000, shapeCast S800000 (extractStridedSlice S1x800000 ![1, 0] a1 slices_S2x800000_S1x800000_1_0) shapeCasts_S1x800000_S800000⟩,
      ⟨S100000, iotaInDim S100000 32 0⟩] concatenates_S800000_S100000_S900000_d0

/-- Every node's degree: ones accumulated by the destination words, from zero. -/
def degT (a1 : (⟨S2x800000, .i32⟩ : BufTy).Contents (Elt F)) : (⟨S100000, .f32⟩ : BufTy).Contents (Elt F) :=
  Host.scatterAdd scatter_S100000_S900000x1_S900000_n_0_0_1
    (broadcastInDim S100000 ![] bcast_S_S100000 (constant S_ .f32 0x00000000#32))
    (broadcastInDim S900000x1 ![0] bcast_S900000_S900000x1_0 (dstT (F := F) a1))
    (broadcastInDim S900000 ![] bcast_S_S900000 (constant S_ .f32 0x3F800000#32))

/-- Every node's factor: the reciprocal square root of a positive degree, else the zero word. -/
def dinvT (a1 : (⟨S2x800000, .i32⟩ : BufTy).Contents (Elt F)) : (⟨S100000, .f32⟩ : BufTy).Contents (Elt F) :=
  select (cmpf (F := F) .ogt (degT (F := F) a1) (broadcastInDim S100000 ![] bcast_S_S100000 (constant S_ .f32 0x00000000#32)))
    (Host.rsqrt (degT (F := F) a1))
    (broadcastInDim S100000 ![] bcast_S_S100000 (constant S_ .f32 0x00000000#32))

/-- The factors as a column. -/
def dcolT (a1 : (⟨S2x800000, .i32⟩ : BufTy).Contents (Elt F)) : (⟨S100000x1, .f32⟩ : BufTy).Contents (Elt F) :=
  shapeCast S100000x1 (dinvT (F := F) a1) shapeCasts_S100000_S100000x1

/-- Index words as a gather takes them: a negative word has the number of nodes added. -/
def wrapT (v : (⟨S900000, .i32⟩ : BufTy).Contents (Elt F)) : (⟨S900000, .i32⟩ : BufTy).Contents (Elt F) :=
  select (cmpi .slt v (broadcastInDim S900000 ![] bcast_S_S900000 (constantI S_ 32 0#32)))
    (addi v (broadcastInDim S900000 ![] bcast_S_S900000 (constantI S_ 32 100000#32))) v

/-- The aggregation of a table of width 8: its rows gathered by the source words, accumulated by the destination words. -/
def agg8T (T : (⟨S100000x8, .f32⟩ : BufTy).Contents (Elt F)) (src dst : (⟨S900000, .i32⟩ : BufTy).Contents (Elt F)) :
    (⟨S100000x8, .f32⟩ : BufTy).Contents (Elt F) :=
  Host.scatterAdd scatter_S100000x8_S900000x1_S900000x8_1_0_0_1
    (broadcastInDim S100000x8 ![] bcast_S_S100000x8 (constant S_ .f32 0x00000000#32))
    (broadcastInDim S900000x1 ![0] bcast_S900000_S900000x1_0 dst)
    (Host.gather gather_S100000x8_S900000x1_S900000x8_1_0_n_n_0_1_18 T
      (broadcastInDim S900000x1 ![0] bcast_S900000_S900000x1_0 (wrapT (F := F) src)))

/-- The aggregation of a table of width 256. -/
def agg256T (T : (⟨S100000x256, .f32⟩ : BufTy).Contents (Elt F)) (src dst : (⟨S900000, .i32⟩ : BufTy).Contents (Elt F)) :
    (⟨S100000x256, .f32⟩ : BufTy).Contents (Elt F) :=
  Host.scatterAdd scatter_S100000x256_S900000x1_S900000x256_1_0_0_1
    (broadcastInDim S100000x256 ![] bcast_S_S100000x256 (constant S_ .f32 0x00000000#32))
    (broadcastInDim S900000x1 ![0] bcast_S900000_S900000x1_0 dst)
    (Host.gather gather_S100000x256_S900000x1_S900000x256_1_0_n_n_0_1_1256 T
      (broadcastInDim S900000x1 ![0] bcast_S900000_S900000x1_0 (wrapT (F := F) src)))

/-! ## What each stretch leaves, from any contents -/

section Stretches

variable (W : Valuation τ sig (Elt F))

-- the first stretch: 18 operations from the edge list
theorem s0_v5 : after (hostOps0 (F := F)) W (Proc.devRef .tc main_v5) = srcT (F := F) (W (Proc.devRef .tc main_arg1)) := by
  after_results; rfl
theorem s0_v6 : after (hostOps0 (F := F)) W (Proc.devRef .tc main_v6) = dstT (F := F) (W (Proc.devRef .tc main_arg1)) := by
  after_results; rfl
theorem s0_v12 : after (hostOps0 (F := F)) W (Proc.devRef .tc main_v12)
    = cmpf (F := F) .ogt (degT (F := F) (W (Proc.devRef .tc main_arg1))) (broadcastInDim S100000 ![] bcast_S_S100000 (constant S_ .f32 0x00000000#32)) := by
  after_results; rfl
theorem s0_v13 : after (hostOps0 (F := F)) W (Proc.devRef .tc main_v13) = Host.rsqrt (degT (F := F) (W (Proc.devRef .tc main_arg1))) := by
  after_results; rfl
theorem s0_cst2 : after (hostOps0 (F := F)) W (Proc.devRef .tc main_cst_2) = constant S_ .f32 0x00000000#32 := by
  after_results
theorem s0_arg0 : after (hostOps0 (F := F)) W (Proc.devRef .tc main_arg0) = W (Proc.devRef .tc main_arg0) := by after_results
theorem s0_arg2 : after (hostOps0 (F := F)) W (Proc.devRef .tc main_arg2) = W (Proc.devRef .tc main_arg2) := by after_results

-- the second stretch: the select that makes the factor
theorem s1_v14 : after (hostOps0_1 (F := F)) W (Proc.devRef .tc main_v14)
    = select (W (Proc.devRef .tc main_v12)) (W (Proc.devRef .tc main_v13))
        (broadcastInDim S100000 ![] bcast_S_S100000 (W (Proc.devRef .tc main_cst_2))) := by
  after_results; rfl
theorem s1_v5 : after (hostOps0_1 (F := F)) W (Proc.devRef .tc main_v5) = W (Proc.devRef .tc main_v5) := by after_results
theorem s1_v6 : after (hostOps0_1 (F := F)) W (Proc.devRef .tc main_v6) = W (Proc.devRef .tc main_v6) := by after_results
theorem s1_arg0 : after (hostOps0_1 (F := F)) W (Proc.devRef .tc main_arg0) = W (Proc.devRef .tc main_arg0) := by after_results
theorem s1_arg2 : after (hostOps0_1 (F := F)) W (Proc.devRef .tc main_arg2) = W (Proc.devRef .tc main_arg2) := by after_results

-- the third stretch: the factors as a column
theorem s2_v15 : after (hostOps0_2 (F := F)) W (Proc.devRef .tc main_v15)
    = shapeCast S100000x1 (W (Proc.devRef .tc main_v14)) shapeCasts_S100000_S100000x1 := by
  after_results; rfl
theorem s2_v5 : after (hostOps0_2 (F := F)) W (Proc.devRef .tc main_v5) = W (Proc.devRef .tc main_v5) := by after_results
theorem s2_v6 : after (hostOps0_2 (F := F)) W (Proc.devRef .tc main_v6) = W (Proc.devRef .tc main_v6) := by after_results
theorem s2_arg0 : after (hostOps0_2 (F := F)) W (Proc.devRef .tc main_arg0) = W (Proc.devRef .tc main_arg0) := by after_results
theorem s2_arg2 : after (hostOps0_2 (F := F)) W (Proc.devRef .tc main_arg2) = W (Proc.devRef .tc main_arg2) := by after_results

-- the stretch after the first call: the first aggregation
theorem s3_v26 : after (hostOps1 (F := F)) W (Proc.devRef .tc main_v26)
    = agg8T (F := F) (W (Proc.devRef .tc main_v16)) (W (Proc.devRef .tc main_v5)) (W (Proc.devRef .tc main_v6)) := by
  after_results; rfl
theorem s3_v5 : after (hostOps1 (F := F)) W (Proc.devRef .tc main_v5) = W (Proc.devRef .tc main_v5) := by after_results
theorem s3_v6 : after (hostOps1 (F := F)) W (Proc.devRef .tc main_v6) = W (Proc.devRef .tc main_v6) := by after_results
theorem s3_v15 : after (hostOps1 (F := F)) W (Proc.devRef .tc main_v15) = W (Proc.devRef .tc main_v15) := by after_results

-- the stretch after the second call: the second aggregation
theorem s4_v37 : after (hostOps2 (F := F)) W (Proc.devRef .tc main_v37)
    = agg256T (F := F) (W (Proc.devRef .tc main_v27)) (W (Proc.devRef .tc main_v5)) (W (Proc.devRef .tc main_v6)) := by
  after_results; rfl
theorem s4_v15 : after (hostOps2 (F := F)) W (Proc.devRef .tc main_v15) = W (Proc.devRef .tc main_v15) := by after_results
theorem s4_arg3 : after (hostOps2 (F := F)) W (Proc.devRef .tc main_arg3) = W (Proc.devRef .tc main_arg3) := by after_results
theorem s4_arg4 : after (hostOps2 (F := F)) W (Proc.devRef .tc main_arg4) = W (Proc.devRef .tc main_arg4) := by after_results

end Stretches

/-! ## Along the run

  The generated frame names the buffer contents at each boundary of @main: `W3` at the first call's entry, `W4` at
  its exit (its arrays at what its write-backs leave, every other buffer as entered), `W5`, `W6` and `W7`, `W8`
  likewise for the second and third calls. Read through them: the words and the factor column reach every call
  unchanged; each aggregation takes the previous call's result array; each argument reaches the call that reads it as
  launched. -/

section Run

variable (m : (ℓ : Loc nD τ sig) → Buf (Elt F) ℓ) (ρ : Dev nD → PrngReg)

/-- The edge list as launched. -/
abbrev edges (c : Dev nD) : (⟨S2x800000, .i32⟩ : BufTy).Contents (Elt F) := m ((c : Thread nD τ).loc main_arg1)

-- at the first call's entry
theorem W3_v5 (c : Dev nD) : W3 m ρ c (Proc.devRef .tc main_v5) = srcT (F := F) (edges m c) :=
  (s2_v5 (W2 m ρ c)).trans ((s1_v5 (W1 m ρ c)).trans (s0_v5 (W0 m ρ c)))
theorem W3_v6 (c : Dev nD) : W3 m ρ c (Proc.devRef .tc main_v6) = dstT (F := F) (edges m c) :=
  (s2_v6 (W2 m ρ c)).trans ((s1_v6 (W1 m ρ c)).trans (s0_v6 (W0 m ρ c)))
theorem W3_arg0 (c : Dev nD) : W3 m ρ c (Proc.devRef .tc main_arg0) = m ((c : Thread nD τ).loc main_arg0) :=
  (s2_arg0 (W2 m ρ c)).trans ((s1_arg0 (W1 m ρ c)).trans (s0_arg0 (W0 m ρ c)))
theorem W3_arg2 (c : Dev nD) : W3 m ρ c (Proc.devRef .tc main_arg2) = m ((c : Thread nD τ).loc main_arg2) :=
  (s2_arg2 (W2 m ρ c)).trans ((s1_arg2 (W1 m ρ c)).trans (s0_arg2 (W0 m ρ c)))
theorem W3_v15 (c : Dev nD) : W3 m ρ c (Proc.devRef .tc main_v15) = dcolT (F := F) (edges m c) := by
  refine (s2_v15 (W2 m ρ c)).trans ?_
  show shapeCast S100000x1 (after hostOps0_1 (W1 m ρ c) (Proc.devRef .tc main_v14)) shapeCasts_S100000_S100000x1 = _
  rw [s1_v14]
  show shapeCast S100000x1 (select (after hostOps0 (W0 m ρ c) (Proc.devRef .tc main_v12)) (after hostOps0 (W0 m ρ c) (Proc.devRef .tc main_v13))
      (broadcastInDim S100000 ![] bcast_S_S100000 (after hostOps0 (W0 m ρ c) (Proc.devRef .tc main_cst_2)))) shapeCasts_S100000_S100000x1 = _
  rw [s0_v12, s0_v13, s0_cst2]
  rfl

-- at the first call's exit
theorem W4_v16 (c : Dev nD) : W4 m ρ c (Proc.devRef .tc main_v16) = (dat0 (V3 m ρ) c).arrAt 3 cfg0.N := W4_arr m ρ c 3
theorem W4_v5 (c : Dev nD) : W4 m ρ c (Proc.devRef .tc main_v5) = srcT (F := F) (edges m c) :=
  (W4_of_ne m ρ c main_v5 (by decide)).trans (W3_v5 m ρ c)
theorem W4_v6 (c : Dev nD) : W4 m ρ c (Proc.devRef .tc main_v6) = dstT (F := F) (edges m c) :=
  (W4_of_ne m ρ c main_v6 (by decide)).trans (W3_v6 m ρ c)
theorem W4_v15 (c : Dev nD) : W4 m ρ c (Proc.devRef .tc main_v15) = dcolT (F := F) (edges m c) :=
  ((W4_arr m ρ c 2).trans (((dat0 (V3 m ρ) c).arrAt_in 2 rfl _).trans (A_eq0 (V3 m ρ) c 2))).trans (W3_v15 m ρ c)

-- at the second call's entry
theorem V5_v26 (c : Dev nD) : V5 m ρ c main_v26
    = agg8T (F := F) ((dat0 (V3 m ρ) c).arrAt 3 cfg0.N) (srcT (F := F) (edges m c)) (dstT (F := F) (edges m c)) := by
  show after hostOps1 (W4 m ρ c) (Proc.devRef .tc main_v26) = _
  rw [s3_v26, W4_v16, W4_v5, W4_v6]
theorem W5_v5 (c : Dev nD) : W5 m ρ c (Proc.devRef .tc main_v5) = srcT (F := F) (edges m c) :=
  (s3_v5 (W4 m ρ c)).trans (W4_v5 m ρ c)
theorem W5_v6 (c : Dev nD) : W5 m ρ c (Proc.devRef .tc main_v6) = dstT (F := F) (edges m c) :=
  (s3_v6 (W4 m ρ c)).trans (W4_v6 m ρ c)
theorem W5_v15 (c : Dev nD) : W5 m ρ c (Proc.devRef .tc main_v15) = dcolT (F := F) (edges m c) :=
  (s3_v15 (W4 m ρ c)).trans (W4_v15 m ρ c)

-- at the second call's exit
theorem W6_v27 (c : Dev nD) : W6 m ρ c (Proc.devRef .tc main_v27) = (dat1 (V5 m ρ) c).arrAt 4 cfg1.N := W6_arr m ρ c 4
theorem W6_v5 (c : Dev nD) : W6 m ρ c (Proc.devRef .tc main_v5) = srcT (F := F) (edges m c) :=
  (W6_of_ne m ρ c main_v5 (by decide)).trans (W5_v5 m ρ c)
theorem W6_v6 (c : Dev nD) : W6 m ρ c (Proc.devRef .tc main_v6) = dstT (F := F) (edges m c) :=
  (W6_of_ne m ρ c main_v6 (by decide)).trans (W5_v6 m ρ c)
theorem W6_v15 (c : Dev nD) : W6 m ρ c (Proc.devRef .tc main_v15) = dcolT (F := F) (edges m c) :=
  ((W6_arr m ρ c 1).trans (((dat1 (V5 m ρ) c).arrAt_in 1 rfl _).trans (A_eq1 (V5 m ρ) c 1))).trans (W5_v15 m ρ c)

-- at the third call's entry
theorem V7_v37 (c : Dev nD) : V7 m ρ c main_v37
    = agg256T (F := F) ((dat1 (V5 m ρ) c).arrAt 4 cfg1.N) (srcT (F := F) (edges m c)) (dstT (F := F) (edges m c)) := by
  show after hostOps2 (W6 m ρ c) (Proc.devRef .tc main_v37) = _
  rw [s4_v37, W6_v27, W6_v5, W6_v6]
theorem V7_v15 (c : Dev nD) : V7 m ρ c main_v15 = dcolT (F := F) (edges m c) :=
  (s4_v15 (W6 m ρ c)).trans (W6_v15 m ρ c)

-- the result
theorem W8_v38 (c : Dev nD) : W8 m ρ c (Proc.devRef .tc main_v38) = (dat2 (V7 m ρ) c).arrAt 7 cfg2.N := W8_arr m ρ c 7

-- the arguments, each at the entry of the call that reads it: an input window's array passes its call unchanged, so
-- what the call found is what its exit holds, and from there on nothing writes it (the generated `W8_main_arg…`)
theorem V3_arg0 (c : Dev nD) : V3 m ρ c main_arg0 = m ((c : Thread nD τ).loc main_arg0) := W3_arg0 m ρ c
theorem V3_arg2 (c : Dev nD) : V3 m ρ c main_arg2 = m ((c : Thread nD τ).loc main_arg2) := W3_arg2 m ρ c
theorem V3_v15 (c : Dev nD) : V3 m ρ c main_v15 = dcolT (F := F) (edges m c) := W3_v15 m ρ c
theorem V5_v15 (c : Dev nD) : V5 m ρ c main_v15 = dcolT (F := F) (edges m c) := W5_v15 m ρ c
theorem V5_arg3 (c : Dev nD) : V5 m ρ c main_arg3 = m ((c : Thread nD τ).loc main_arg3) :=
  ((W6_arr m ρ c 2).trans (((dat1 (V5 m ρ) c).arrAt_in 2 rfl _).trans (A_eq1 (V5 m ρ) c 2))).symm.trans
    ((s4_arg3 (W6 m ρ c)).symm.trans ((W8_of_ne m ρ c main_arg3 (by decide)).symm.trans (W8_main_arg3 m ρ c)))
theorem V5_arg4 (c : Dev nD) : V5 m ρ c main_arg4 = m ((c : Thread nD τ).loc main_arg4) :=
  ((W6_arr m ρ c 3).trans (((dat1 (V5 m ρ) c).arrAt_in 3 rfl _).trans (A_eq1 (V5 m ρ) c 3))).symm.trans
    ((s4_arg4 (W6 m ρ c)).symm.trans ((W8_of_ne m ρ c main_arg4 (by decide)).symm.trans (W8_main_arg4 m ρ c)))
theorem V7_arg5 (c : Dev nD) : V7 m ρ c main_arg5 = m ((c : Thread nD τ).loc main_arg5) :=
  ((W8_arr m ρ c 2).trans (((dat2 (V7 m ρ) c).arrAt_in 2 rfl _).trans (A_eq2 (V7 m ρ) c 2))).symm.trans (W8_main_arg5 m ρ c)
theorem V7_arg6 (c : Dev nD) : V7 m ρ c main_arg6 = m ((c : Thread nD τ).loc main_arg6) :=
  ((W8_arr m ρ c 3).trans (((dat2 (V7 m ρ) c).arrAt_in 3 rfl _).trans (A_eq2 (V7 m ρ) c 3))).symm.trans (W8_main_arg6 m ρ c)
theorem V7_arg7 (c : Dev nD) : V7 m ρ c main_arg7 = m ((c : Thread nD τ).loc main_arg7) :=
  ((W8_arr m ρ c 4).trans (((dat2 (V7 m ρ) c).arrAt_in 4 rfl _).trans (A_eq2 (V7 m ρ) c 4))).symm.trans (W8_main_arg7 m ρ c)
theorem V7_arg8 (c : Dev nD) : V7 m ρ c main_arg8 = m ((c : Thread nD τ).loc main_arg8) :=
  ((W8_arr m ρ c 5).trans (((dat2 (V7 m ρ) c).arrAt_in 5 rfl _).trans (A_eq2 (V7 m ρ) c 5))).symm.trans (W8_main_arg8 m ρ c)
theorem V7_arg9 (c : Dev nD) : V7 m ρ c main_arg9 = m ((c : Thread nD τ).loc main_arg9) :=
  ((W8_arr m ρ c 6).trans (((dat2 (V7 m ρ) c).arrAt_in 6 rfl _).trans (A_eq2 (V7 m ρ) c 6))).symm.trans (W8_main_arg9 m ρ c)

end Run

end Cert.KernelIdeal.Hand

end
-- ==== Proof.Spec.lean ====
/-
  Two-layer graph convolution with symmetric degree normalisation, as arithmetic on the extended reals.

  A message n carries the source row g(n) to every node k it hits; h(n) is the node its destination index reads
  once wrapped and clamped, and a message that hits k has h(n) = k. The reference weighs each message by the
  product d(g n) · d(h n) of the two nodes' factors before summing; the kernel scales the table's rows by d before
  the sum and the summed row by d(k) after it. The two agree because multiplication of extended reals is
  associative and because a factor that is nonnegative and not +∞ distributes over a finite sum, whatever the
  summands are (infinite ones included). The node factor d = rsqrt(deg) where deg > 0, else 0, is such a factor
  for EVERY extended real deg: rsqrt sends +∞ to 0 and a positive real to a positive real. So nothing about the
  inputs is needed.
-/
import Idealize.ShloMosaic.PureOps.Ideal

noncomputable section

open scoped BigOperators

namespace Cert.Gcn

open Idealize.ShloMosaic

/-- A factor that is nonnegative and not +∞ distributes over a finite sum of extended reals. -/
theorem sum_mul_of_nonneg_ne_top {ι : Type} (s : Finset ι) (f : ι → EReal) {d : EReal} (h0 : 0 ≤ d) (ht : d ≠ ⊤) :
    (∑ n ∈ s, f n) * d = ∑ n ∈ s, f n * d := by
  classical
  refine Finset.induction_on s ?_ ?_
  · simp
  · intro a s ha ih
    rw [Finset.sum_insert ha, Finset.sum_insert ha, EReal.right_distrib_of_nonneg_of_ne_top h0 ht, ih]

/-- A node's normalising factor from its degree: the reciprocal square root where the degree is positive, zero elsewhere. -/
def normFactor (t : EReal) : EReal := if 0 < t then Ideal.rsqrt t else 0

/-- Whatever the degree, the factor is nonnegative … -/
theorem normFactor_nonneg (t : EReal) : 0 ≤ normFactor t := by
  unfold normFactor
  split_ifs with h
  · induction t using EReal.rec with
    | bot => exact absurd h (not_lt_bot)
    | coe r =>
      have hr : 0 < r := by exact_mod_cast h
      rw [Ideal.rsqrt_coe, if_neg (not_lt.mpr hr.le), if_neg hr.ne']
      exact_mod_cast inv_nonneg.mpr (Real.sqrt_nonneg r)
    | top => rw [Ideal.rsqrt_top]
  · exact le_refl _

/-- … and not +∞ (the reciprocal square root of +∞ is 0, of a positive real a real). -/
theorem normFactor_ne_top (t : EReal) : normFactor t ≠ ⊤ := by
  unfold normFactor
  split_ifs with h
  · induction t using EReal.rec with
    | bot => exact absurd h (not_lt_bot)
    | coe r =>
      have hr : 0 < r := by exact_mod_cast h
      rw [Ideal.rsqrt_coe, if_neg (not_lt.mpr hr.le), if_neg hr.ne']
      exact EReal.coe_ne_top _
    | top => rw [Ideal.rsqrt_top]; exact EReal.zero_ne_top
  · exact EReal.zero_ne_top

section Chains

variable {N C A B D E : ℕ}
variable (hit : Fin N → Fin C → Prop) [∀ n k, Decidable (hit n k)] (g h : Fin N → Fin C) (d : Fin C → EReal)

/-- One column of the layer law: the rows pre-scaled, summed over the messages that hit k, and post-scaled by d(k),
    against the rows weighed message by message by d(g n) · d(h n). -/
theorem layer_law (hd0 : ∀ k, 0 ≤ d k) (hdt : ∀ k, d k ≠ ⊤) (hh : ∀ n k, hit n k → h n = k) (T : Fin C → EReal) (k : Fin C) :
    (∑ n, if hit n k then T (g n) * d (g n) else 0) * d k = ∑ n, if hit n k then T (g n) * (d (g n) * d (h n)) else 0 := by
  rw [sum_mul_of_nonneg_ne_top _ _ (hd0 k) (hdt k)]
  refine Finset.sum_congr rfl fun n _ => ?_
  by_cases hn : hit n k
  · rw [if_pos hn, if_pos hn, hh n k hn, mul_assoc]
  · rw [if_neg hn, if_neg hn, zero_mul]

/-- A product of two matrices, entry (i, j). -/
def mm {I K J : ℕ} (a : Fin I → Fin K → EReal) (b : Fin K → Fin J → EReal) (i : Fin I) (j : Fin J) : EReal :=
  ∑ l, a i l * b l j

/-- The rows g(n) of a table summed over the messages that hit node k, column e. -/
def agg {J : ℕ} (T : Fin C → Fin J → EReal) (k : Fin C) (e : Fin J) : EReal :=
  ∑ n, if hit n k then T (g n) e else 0

variable (x : Fin C → Fin A → EReal) (W1 : Fin A → Fin B → EReal) (b1 : Fin B → EReal)
  (W2 : Fin B → Fin D → EReal) (b2 : Fin D → EReal)

/-- The kernel's first product, its rows pre-scaled. -/
def kR0 (i : Fin C) (e : Fin B) : EReal := mm x W1 i e * d i
/-- The kernel's first layer: aggregate, post-scale, bias, clamp at zero. -/
def kH1 (k : Fin C) (e : Fin B) : EReal := max (agg hit g (kR0 d x W1) k e * d k + b1 e) 0
/-- The kernel's second product, its rows pre-scaled. -/
def kR1 (i : Fin C) (f : Fin D) : EReal := mm (kH1 hit g d x W1 b1) W2 i f * d i
/-- The kernel's second layer before the dense tail: aggregate, post-scale, bias. -/
def kH2 (k : Fin C) (f : Fin D) : EReal := agg hit g (kR1 hit g d x W1 b1 W2) k f * d k + b2 f

/-- The reference's first convolution. -/
def rC1 (k : Fin C) (e : Fin B) : EReal :=
  (∑ n, if hit n k then mm x W1 (g n) e * (d (g n) * d (h n)) else 0) + b1 e
/-- The reference's second convolution, over the first clamped at zero. -/
def rC2 (k : Fin C) (f : Fin D) : EReal :=
  (∑ n, if hit n k then mm (fun i e => max (rC1 hit g h d x W1 b1 i e) 0) W2 (g n) f * (d (g n) * d (h n)) else 0) + b2 f

variable (hd0 : ∀ k, 0 ≤ d k) (hdt : ∀ k, d k ≠ ⊤) (hh : ∀ n k, hit n k → h n = k)
include hd0 hdt hh

/-- After the first layer the two sides hold the same rows. -/
theorem kH1_eq (k : Fin C) (e : Fin B) : kH1 hit g d x W1 b1 k e = max (rC1 hit g h d x W1 b1 k e) 0 := by
  unfold kH1 rC1 agg kR0
  rw [layer_law hit g h d hd0 hdt hh (fun i => mm x W1 i e) k]

/-- After the second layer too. -/
theorem kH2_eq (k : Fin C) (f : Fin D) : kH2 hit g d x W1 b1 W2 b2 k f = rC2 hit g h d x W1 b1 W2 b2 k f := by
  unfold kH2 rC2 agg kR1
  rw [layer_law hit g h d hd0 hdt hh (fun i => mm (kH1 hit g d x W1 b1) W2 i f) k]
  have e1 : kH1 hit g d x W1 b1 = fun i e => max (rC1 hit g h d x W1 b1 i e) 0 :=
    funext fun i => funext fun e => kH1_eq hit g h d x W1 b1 hd0 hdt hh i e
  rw [e1]

omit hd0 hdt hh

end Chains

/-- The dense tail both programs end with: a product, a bias, a clamp at zero, a product onto one column, a bias. -/
def tail {C D E : ℕ} (Wl1 : Fin D → Fin E → EReal) (bl1 : Fin E → EReal) (Wl2 : Fin E → Fin 1 → EReal) (bl2 : Fin 1 → EReal)
    (h2 : Fin C → Fin D → EReal) (k : Fin C) : EReal :=
  mm (fun k j => max (mm h2 Wl1 k j + bl1 j) 0) Wl2 k 0 + bl2 0

end Cert.Gcn

end
-- ==== Proof.Msg.lean ====
/-
  Messages between nodes, read off two vectors of 32-bit index words.

  A destination word hits node k when, read as a signed integer, it is k: the accumulating scatter drops every other
  word (negative, or past the last node). A gather reads a word differently: a negative word first has the number of
  nodes added (the wrap), and the result is clamped into the node range. For a word that hits k the two readings
  agree: it is nonnegative, so the wrap leaves it alone, and k is in range, so the clamp does.

  A node's degree is the number of destination words that hit it, counted from zero in units of one; its factor is
  the specification's `normFactor` of that. The host writes the factor as a select on the comparison `deg > 0`
  between the reciprocal square root and a zero: `factor_eq`.
-/
import proofs.«424020_j46316927320529_3_alg».proof.Proof.Spec
import Idealize.ShloMosaic.Lib.ValueIdx
import Idealize.ShloMosaic.PureOps.Ideal.Laws

noncomputable section

open scoped BigOperators

namespace Cert.Gcn

open Idealize.ShloMosaic Idealize.ShloMosaic.ValueIdx

variable {N : ℕ}

/-- Message n's destination word hits node k. -/
def hitOf {C : ℕ} (dst : (⟨1, ![N]⟩ : Shape).Idx → BitVec 32) (n : Fin N) (k : Fin C) : Prop :=
  (dst (ix1 n)).toInt = (k.val : ℤ)

instance {C : ℕ} (dst : (⟨1, ![N]⟩ : Shape).Idx → BitVec 32) (n : Fin N) (k : Fin C) : Decidable (hitOf dst n k) :=
  inferInstanceAs (Decidable (_ = _))

/-- A word as a gather's start index is first wrapped: a negative word has the extent added. -/
def wrapWord (ext w : BitVec 32) : BitVec 32 :=
  Scalar.select (IntOp.cmpi .slt w 0#32) (IntOp.addi w ext) w

/-- The row a gather reads for message n: its word wrapped, read signed, clamped into the C rows. -/
def rowOf (C : ℕ) (hC : 0 < C) (ext : BitVec 32) (v : (⟨1, ![N]⟩ : Shape).Idx → BitVec 32) (n : Fin N) : Fin C :=
  ⟨min (wrapWord ext (v (ix1 n))).toInt.toNat (C - 1), by omega⟩

/-- A word that reads a nonnegative integer is not wrapped. -/
theorem wrapWord_of_nonneg (ext w : BitVec 32) (h : 0 ≤ w.toInt) : wrapWord ext w = w := by
  unfold wrapWord IntOp.cmpi Scalar.select
  have hs : w.slt 0#32 = false := by
    rw [BitVec.slt_eq_decide]
    simpa using h
  simp [hs]

/-- A destination word that hits node k gathers row k. -/
theorem rowOf_of_hit {C : ℕ} (hC : 0 < C) (ext : BitVec 32) (dst : (⟨1, ![N]⟩ : Shape).Idx → BitVec 32) (n : Fin N) (k : Fin C)
    (h : hitOf dst n k) : rowOf C hC ext dst n = k := by
  unfold hitOf at h
  unfold rowOf
  apply Fin.ext
  show min (wrapWord ext (dst (ix1 n))).toInt.toNat (C - 1) = k.val
  rw [wrapWord_of_nonneg ext _ (by rw [h]; exact Int.natCast_nonneg _), h, Int.toNat_natCast]
  have hk := k.isLt
  omega

/-- A node's degree: from the zero word, one unit per destination word that hits it. -/
def degOf {C : ℕ} (dst : (⟨1, ![N]⟩ : Shape).Idx → BitVec 32) (k : Fin C) : EReal :=
  Ideal.ofBits .f32 0x00000000#32 + ∑ n : Fin N, if hitOf dst n k then Ideal.ofBits .f32 0x3F800000#32 else 0

/-- A node's normalising factor. -/
def dOf {C : ℕ} (dst : (⟨1, ![N]⟩ : Shape).Idx → BitVec 32) (k : Fin C) : EReal := normFactor (degOf dst k)

theorem dOf_nonneg {C : ℕ} (dst : (⟨1, ![N]⟩ : Shape).Idx → BitVec 32) (k : Fin C) : 0 ≤ dOf dst k := normFactor_nonneg _
theorem dOf_ne_top {C : ℕ} (dst : (⟨1, ![N]⟩ : Shape).Idx → BitVec 32) (k : Fin C) : dOf dst k ≠ ⊤ := normFactor_ne_top _

/-- The host's spelling of the factor: a select, on the comparison of the degree with the zero word, between the
    reciprocal square root and the zero word. -/
theorem factor_eq (t : EReal) :
    Scalar.select (FloatOps.cmpf (F := Ideal) (φ := .f32) .ogt t (Ideal.ofBits .f32 0x00000000#32))
        (FloatOps.hostUnary (F := Ideal) (φ := .f32) .rsqrt t) (Ideal.ofBits .f32 0x00000000#32)
      = normFactor t := by
  unfold normFactor Scalar.select
  rw [Ideal.ofBits_zero_f32, Ideal.hostUnary_rsqrt_def]
  have hc : FloatOps.cmpf (F := Ideal) (φ := .f32) .ogt t 0 = BitVec.ofBool (decide (0 < t)) := rfl
  rw [hc]
  by_cases h : 0 < t
  · rw [if_pos h, if_pos (by simp [h])]
  · rw [if_neg h, if_neg (by simp [h])]

end Cert.Gcn

end
-- ==== Proof.LibScatterAddRows.lean ====
/-
  A row-wise accumulating scatter read at an entry, at the ideal values.

  The host's accumulating scatter of an [N, D] array of update rows into a [C, D] operand by an [N, 1] column of row
  indices (the update's second axis the window, the operand's first axis inserted and scattered to, the index vector
  on the indices' second axis) sends update row n whole to operand row idx(n), the index word read as a signed integer and
  not clamped; a row whose index is below 0 or not below C is dropped. So entry (k, e) of the result is the operand's
  entry plus the sum over the rows n of: update entry (n, e) when idx(n) is k, zero otherwise. The scatter of an [N]
  vector of updates into a [C] operand by the same column of indices reads the same way at entry k.

  The road: an update index lands at a given operand index exactly when, on every operand axis, the window's start plus
  the window coordinate is that index's coordinate (`resultIdx?_eq_some_iff`, for any dimension numbers). For these
  dimension numbers the start is the index word on the scattered axis and zero on the window axis, and the window
  coordinate is zero on the inserted axis and the update's column on the window axis; so update (n, e') lands at (k, e)
  exactly when idx(n) reads k and e' is e. The filtered sum over the update indices is then the double sum over rows and
  columns of an `if`, and the inner sum over the columns has one term.
-/
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

/-- An update index lands at i exactly when, on every operand axis, the window's start plus the window coordinate is
    i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

/-- The index word an update row reads: the column of indices at (row, 0). -/
private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the row's index word, read signed. -/
private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

/-- On the window axis the window starts at zero. -/
private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

/-- The inserted axis has window coordinate zero. -/
private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

/-- The window axis has the update's column as window coordinate. -/
private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

/-- Update index j lands at (k, e) exactly when its row's index word reads k and its column is e. -/
theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

/-- The index word an update reads: the column of indices at (its position, 0). -/
private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the operand's one axis the window starts at the update's index word, read signed. -/
private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

/-- The operand's one axis is inserted: its window coordinate is zero. -/
private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

/-- Update index j lands at k exactly when its index word reads k. -/
theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

/-- Rows of width D accumulated into a [C, D] operand by an [N, 1] column of row indices, read at (k, e). -/
theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

/-- Scalars accumulated into a [C] operand by an [N, 1] column of indices, read at k. -/
theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.LibGatherRows.lean ====
/-
  A gather of whole rows of a table, read at an index.

  A table `T : [N, C]` gathered at a column `idx : [R, 1]` of start indices with offset_dims = [1],
  collapsed_slice_dims = [0], start_index_map = [0], index_vector_dim = 1 and slice sizes [1, C] has the result `[R, C]`
  whose row `e` is a row of the table. Read at `(e, j)` it is the table at `(r, j)`, where `r` is the start index
  `idx[e, 0]` read as a signed integer and clamped into `[0, N − 1]`: the one start-indexed axis is collapsed, so its
  slice has extent one and the clamp's upper end is `N − 1`; the column axis is the one offset axis, not start-indexed, so
  its slice starts at column 0 and the result's column coordinate is the table's.

  Stated for any dimension-numbers record with those field values (`gather_rows`), and for the record built from the
  extents and the well-formedness witness alone (`rowDims`, `gather_rowDims_apply`).
-/
import Idealize.ShloMosaic.PureOps.ShapeOps
import Idealize.ShloMosaic.Lib.ValueIdx

namespace Idealize.ShloMosaic.GatherRows

open Idealize.ShloMosaic Idealize.ShloMosaic.ValueIdx

/-- A list that is one entry long has that entry at every position it has. -/
theorem getElem_of_eq_singleton {β : Type} (l : List β) (b : β) (n : Nat) (h : n < l.length) (hl : l = [b]) : l[n] = b := by
  subst hl
  have : n = 0 := by simpa using h
  subst this; rfl

/-- THE ROW GATHER READ AT `(e, j)`. For dimension numbers over a table `[N, C]`, start indices `[R, 1]` and result
    `[R, C]` with offset axis 1, collapsed axis 0, no batching axes, start index map `[0]` and the index vector on axis 1
    (`hoff` … `hivd`: the record's field values; its conditions give the slice sizes `[1, C]`): the table at row
    `idx[e, 0]`, read signed and clamped into `[0, N − 1]`, column `j`. -/
theorem gather_rows {α : Type} {N R C w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (T : (⟨2, ![N, C]⟩ : Shape).Idx → α) (idx : IVec ⟨2, ![R, 1]⟩ w) (e : Fin R) (j : Fin C) (hN : 0 < N) :
    Host.gather d T idx (ix2 e j) = T (ix2 ⟨min (idx (ix2 e 0)).toInt.toNat (N - 1), by omega⟩ j) := by
  unfold Host.gather
  congr 1
  funext a
  apply Fin.ext
  have hb : ∀ a, a ∉ d.operandBatchingDims := fun a => by rw [hob]; exact List.not_mem_nil
  match a with
  | ⟨0, _⟩ =>
    -- the row axis: start-indexed and collapsed, so the coordinate is the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e j) idx 0 + d.batchCoord (ix2 e j) 0 + d.offCoord (ix2 e j) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 e 0)).toInt.toNat (N - 1)
    rw [hsl]
    congr 3
    congr 1
    -- the start-indices index of result index (e, j), component 0, is (e, 0)
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = _
        rw [hoff]; rfl
      rw [getElem_of_eq_singleton d.batchDims 0 _ _ hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: the one offset axis, not start-indexed, so the coordinate is the result's column
    have hk : (1 : Fin 2) ∈ d.sKept := by rw [GatherDims.mem_sKept, hcoll]; exact ⟨by simp, hb 1⟩
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1)]
    unfold GatherDims.start GatherDims.offCoord
    rw [dif_neg hm, dif_pos hk]
    simp only [Nat.add_zero, Nat.zero_add]
    rw [getElem_of_eq_singleton d.offsetDims 1 _ _ hoff]
    rfl

/-- Those dimension numbers for a table `[N, C]`, start indices `[R, 1]` and result `[R, C]`; their conditions `wf` are
    decided on literal extents. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather by `rowDims` read at `(e, j)`. -/
theorem gather_rowDims_apply {α : Type} {N R C w : Nat} (hN : 0 < N)
    (wf : GatherDims.WF ⟨2, ![N, C]⟩ ⟨2, ![R, 1]⟩ ⟨2, ![R, C]⟩ [1] [0] [] [0] [] 1 ![1, C])
    (T : (⟨2, ![N, C]⟩ : Shape).Idx → α) (idx : IVec ⟨2, ![R, 1]⟩ w) (e : Fin R) (j : Fin C) :
    Host.gather (rowDims N R C wf) T idx (ix2 e j) = T (ix2 ⟨min (idx (ix2 e 0)).toInt.toNat (N - 1), by omega⟩ j) :=
  gather_rows (rowDims N R C wf) rfl rfl rfl rfl rfl T idx e j hN

end Idealize.ShloMosaic.GatherRows
-- ==== Proof.LibHostReads.lean ====
/-
  Host broadcasts and an all-true mask, read at an index.

  A vector [n] laid out as a column [n, 1] keeps its entries; laid along the first axis of an [n, m] matrix it is constant
  along each row. A reduction by `and`, started from the bit 1, of an array of bits that are all 1 is the bit 1 at every
  result index, whatever the axes reduced.
-/
import Idealize.ShloMosaic.PureOps.Reduce
import Idealize.ShloMosaic.Lib.ValueIdx

namespace Idealize.ShloMosaic.HostReads

open Idealize.ShloMosaic Idealize.ShloMosaic.ValueIdx

variable {α : Type}

/-- A vector `[n]` broadcast to a column `[n, 1]` along axis 0 reads, at `(p, u)`, the vector at `p`. -/
theorem broadcastInDim_vec_col_apply {n : ℕ} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) := by
  unfold broadcastInDim
  congr 1
  funext a
  match a with
  | ⟨0, _⟩ =>
    apply Fin.ext
    dsimp only
    split
    · rename_i h1
      have h1' : n = 1 := h1
      have := p.isLt
      show (0 : ℕ) = p.val
      omega
    · rfl

/-- A vector `[n]` broadcast along the first axis of an `[n, m]` matrix reads, at `(p, q)`, the vector at `p`. -/
theorem broadcastInDim_vec_rows_apply {n m : ℕ} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  unfold broadcastInDim
  congr 1
  funext a
  match a with
  | ⟨0, _⟩ =>
    apply Fin.ext
    dsimp only
    split
    · rename_i h1
      have h1' : n = 1 := h1
      have := p.isLt
      show (0 : ℕ) = p.val
      omega
    · rfl

/-- A left fold by `and` from the bit 1 over bits that are all 1 is 1. -/
theorem foldl_andi_one {ι : Type} (f : ι → BitVec 1) (hf : ∀ i, f i = 1#1) :
    ∀ (l : List ι) (r : BitVec 1), r = 1#1 → l.foldl (fun r n => IntOp.andi r (f n)) r = 1#1
  | [], r, hr => hr
  | a :: l, r, hr => by
    rw [List.foldl_cons]
    exact foldl_andi_one f hf l _ (by rw [hr, hf a]; decide)

/-- A reduction by `and` from an initial 1 of an array of bits that are all 1 is 1 at every result index. -/
theorem reduce_andi_of_forall_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_one x hx _ _ hinit

end Idealize.ShloMosaic.HostReads
-- ==== Proof.LibSegmentOfRows.lean ====
/-
  Message passing on the host, read at an entry, at the ideal values and at any extents.

  Over C nodes and N messages, each message carrying a source word and a destination word:

  * `segment_of_rows_apply`: the rows of a table [C, D] gathered by the wrapped source words (a negative word has
    `ext` added; the gather then clamps) and accumulated from the zero word into [C, D] by the destination words, read
    at (k, e): the sum over the messages whose destination word reads k of the gathered row's entry e.
  * `degree_apply`: ones accumulated from the zero word into [C] by the destination words, read at k: the zero word
    plus one unit per message whose destination word reads k (`Cert.Gcn.degOf`).
  * `factor_col_apply`: the select between the reciprocal square root of that degree and the zero word, on the
    comparison of the degree with the zero word, cast to a column [C, 1] and read at (i, 0): `Cert.Gcn.dOf`.

  The extents are variables, so that no step can start evaluating a sum; a program's literal records and witnesses
  are passed as arguments.
-/
import proofs.«424020_j46316927320529_3_alg».proof.Proof.Msg
import proofs.«424020_j46316927320529_3_alg».proof.Proof.LibScatterAddRows
import proofs.«424020_j46316927320529_3_alg».proof.Proof.LibGatherRows
import proofs.«424020_j46316927320529_3_alg».proof.Proof.LibHostReads
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Idealize.ShloMosaic.SegmentOfRows

open Cert.Gcn

variable {C D N : ℕ}

/-- Index words wrapped for a gather, at message n. -/
theorem wrap_apply (hbs : (⟨0, ![]⟩ : Shape).BroadcastsInDim ⟨1, ![N]⟩ ![]) (ext : BitVec 32)
    (v : (⟨1, ![N]⟩ : Shape).Idx → BitVec 32) (n : Fin N) :
    select (cmpi .slt v (broadcastInDim ⟨1, ![N]⟩ ![] hbs (constantI ⟨0, ![]⟩ 32 0#32)))
        (addi v (broadcastInDim ⟨1, ![N]⟩ ![] hbs (constantI ⟨0, ![]⟩ 32 ext))) v (ix1 n)
      = wrapWord ext (v (ix1 n)) := by
  unfold wrapWord
  show Scalar.select (IntOp.cmpi .slt (v (ix1 n)) (broadcastInDim ⟨1, ![N]⟩ ![] hbs (constantI ⟨0, ![]⟩ 32 0#32) (ix1 n)))
      (IntOp.addi (v (ix1 n)) (broadcastInDim ⟨1, ![N]⟩ ![] hbs (constantI ⟨0, ![]⟩ 32 ext) (ix1 n))) (v (ix1 n)) = _
  rw [broadcastInDim_apply _ hbs (constantI ⟨0, ![]⟩ 32 0#32) (ix1 n) ix0 (fun a => a.elim0),
    broadcastInDim_apply _ hbs (constantI ⟨0, ![]⟩ 32 ext) (ix1 n) ix0 (fun a => a.elim0)]
  rfl

/-- Gathered rows accumulated into segments, at (k, e). -/
theorem segment_of_rows_apply (hC : 0 < C)
    (swf : ScatterDims.WF ⟨2, ![C, D]⟩ ⟨2, ![N, 1]⟩ ⟨2, ![N, D]⟩ [1] [0] [0] 1)
    (gd : GatherDims ⟨2, ![C, D]⟩ ⟨2, ![N, 1]⟩ ⟨2, ![N, D]⟩)
    (hoff : gd.offsetDims = [1]) (hcoll : gd.collapsedSliceDims = [0]) (hob : gd.operandBatchingDims = [])
    (hsim : gd.startIndexMap = [0]) (hivd : gd.indexVectorDim = 1)
    (hb0 : (⟨0, ![]⟩ : Shape).BroadcastsInDim ⟨2, ![C, D]⟩ ![])
    (hbc : (⟨1, ![N]⟩ : Shape).BroadcastsInDim ⟨2, ![N, 1]⟩ ![0])
    (hbs : (⟨0, ![]⟩ : Shape).BroadcastsInDim ⟨1, ![N]⟩ ![]) (ext : BitVec 32)
    (T : (⟨2, ![C, D]⟩ : Shape).Idx → EReal) (src dst : (⟨1, ![N]⟩ : Shape).Idx → BitVec 32) (k : Fin C) (e : Fin D) :
    Host.scatterAdd (F := Ideal) (⟨[1], [0], [0], 1, swf⟩ : ScatterDims ⟨2, ![C, D]⟩ ⟨2, ![N, 1]⟩ ⟨2, ![N, D]⟩)
        (broadcastInDim ⟨2, ![C, D]⟩ ![] hb0 (constant (F := Ideal) ⟨0, ![]⟩ .f32 0x00000000#32))
        (broadcastInDim ⟨2, ![N, 1]⟩ ![0] hbc dst)
        (Host.gather gd T (broadcastInDim ⟨2, ![N, 1]⟩ ![0] hbc
          (select (cmpi .slt src (broadcastInDim ⟨1, ![N]⟩ ![] hbs (constantI ⟨0, ![]⟩ 32 0#32)))
            (addi src (broadcastInDim ⟨1, ![N]⟩ ![] hbs (constantI ⟨0, ![]⟩ 32 ext))) src)))
        (ix2 k e)
      = ∑ n : Fin N, if hitOf dst n k then T (ix2 (rowOf C hC ext src n) e) else 0 := by
  unfold Host.scatterAdd
  rw [Ideal.hostScatterAdd_def, ScatterAddRows.scatterAdd_rows_apply,
    broadcastInDim_apply _ hb0 (constant (F := Ideal) ⟨0, ![]⟩ .f32 0x00000000#32) (ix2 k e) ix0 (fun a => a.elim0)]
  show Ideal.ofBits .f32 0x00000000#32 + _ = _
  rw [Ideal.ofBits_zero_f32, zero_add]
  refine Finset.sum_congr rfl fun n _ => ?_
  rw [HostReads.broadcastInDim_vec_col_apply, GatherRows.gather_rows gd hoff hcoll hob hsim hivd T _ n e hC]
  refine if_congr Iff.rfl (congrArg T (congrArg (fun r : Fin C => ix2 r e) (Fin.ext ?_))) rfl
  show min _ (C - 1) = min (wrapWord ext (src (ix1 n))).toInt.toNat (C - 1)
  rw [HostReads.broadcastInDim_vec_col_apply, wrap_apply]

/-- A node's degree as the host accumulates it, at k. -/
theorem degree_apply
    (swf : ScatterDims.WF ⟨1, ![C]⟩ ⟨2, ![N, 1]⟩ ⟨1, ![N]⟩ [] [0] [0] 1)
    (hb0 : (⟨0, ![]⟩ : Shape).BroadcastsInDim ⟨1, ![C]⟩ ![])
    (hbc : (⟨1, ![N]⟩ : Shape).BroadcastsInDim ⟨2, ![N, 1]⟩ ![0])
    (hbs : (⟨0, ![]⟩ : Shape).BroadcastsInDim ⟨1, ![N]⟩ ![])
    (dst : (⟨1, ![N]⟩ : Shape).Idx → BitVec 32) (k : Fin C) :
    Host.scatterAdd (F := Ideal) (⟨[], [0], [0], 1, swf⟩ : ScatterDims ⟨1, ![C]⟩ ⟨2, ![N, 1]⟩ ⟨1, ![N]⟩)
        (broadcastInDim ⟨1, ![C]⟩ ![] hb0 (constant (F := Ideal) ⟨0, ![]⟩ .f32 0x00000000#32))
        (broadcastInDim ⟨2, ![N, 1]⟩ ![0] hbc dst)
        (broadcastInDim ⟨1, ![N]⟩ ![] hbs (constant (F := Ideal) ⟨0, ![]⟩ .f32 0x3F800000#32))
        (ix1 k)
      = degOf dst k := by
  unfold Host.scatterAdd degOf
  rw [Ideal.hostScatterAdd_def, ScatterAddRows.scatterAdd_vec_apply,
    broadcastInDim_apply _ hb0 (constant (F := Ideal) ⟨0, ![]⟩ .f32 0x00000000#32) (ix1 k) ix0 (fun a => a.elim0)]
  refine congrArg (fun s : EReal => Ideal.ofBits .f32 0x00000000#32 + s) (Finset.sum_congr rfl fun n _ => ?_)
  rw [HostReads.broadcastInDim_vec_col_apply,
    broadcastInDim_apply _ hbs (constant (F := Ideal) ⟨0, ![]⟩ .f32 0x3F800000#32) (ix1 n) ix0 (fun a => a.elim0)]
  rfl

/-- The factor column at (i, 0), for any degree vector that reads `degOf dst` entry by entry. -/
theorem factor_col_apply
    (hb0 : (⟨0, ![]⟩ : Shape).BroadcastsInDim ⟨1, ![C]⟩ ![])
    (hsc : (⟨1, ![C]⟩ : Shape).ShapeCasts ⟨2, ![C, 1]⟩)
    (dst : (⟨1, ![N]⟩ : Shape).Idx → BitVec 32) (deg : (⟨1, ![C]⟩ : Shape).Idx → EReal)
    (hdeg : ∀ k : Fin C, deg (ix1 k) = degOf dst k) (i : Fin C) :
    shapeCast ⟨2, ![C, 1]⟩
        (select (cmpf (F := Ideal) .ogt deg (broadcastInDim ⟨1, ![C]⟩ ![] hb0 (constant (F := Ideal) ⟨0, ![]⟩ .f32 0x00000000#32)))
          (Host.rsqrt (F := Ideal) deg)
          (broadcastInDim ⟨1, ![C]⟩ ![] hb0 (constant (F := Ideal) ⟨0, ![]⟩ .f32 0x00000000#32)))
        hsc (ix2 i (0 : Fin 1))
      = dOf dst i := by
  rw [shapeCast_apply _ hsc (ix2 i (0 : Fin 1)) (ix1 i)
    (by rw [Shape.rowMajor_val_one, Shape.rowMajor_val_two]; show i.val = i.val * 1 + 0; omega)]
  unfold dOf
  show Scalar.select (FloatOps.cmpf (F := Ideal) .ogt (deg (ix1 i))
        (broadcastInDim ⟨1, ![C]⟩ ![] hb0 (constant (F := Ideal) ⟨0, ![]⟩ .f32 0x00000000#32) (ix1 i)))
      (FloatOps.hostUnary (F := Ideal) .rsqrt (deg (ix1 i)))
      (broadcastInDim ⟨1, ![C]⟩ ![] hb0 (constant (F := Ideal) ⟨0, ![]⟩ .f32 0x00000000#32) (ix1 i)) = _
  rw [broadcastInDim_apply _ hb0 (constant (F := Ideal) ⟨0, ![]⟩ .f32 0x00000000#32) (ix1 i) ix0 (fun a => a.elim0), hdeg]
  exact factor_eq _

end Idealize.ShloMosaic.SegmentOfRows

end
-- ==== Proof.KernelHostRead.lean ====
/-
  The kernel program's host values read at an index, at the ideal values.

  An aggregation reads, at (k, e): the sum over the messages whose destination word hits node k of the table's row
  that the message's source word gathers, column e. The factor column reads, at (i, 0): the specification's factor of
  node i. Each is the general reading of gathered rows accumulated into segments, of a degree, and of a factor
  column, at this program's records and extents.
-/
import proofs.«424020_j46316927320529_3_alg».proof.Proof.KernelChain
import proofs.«424020_j46316927320529_3_alg».proof.Proof.Msg
import proofs.«424020_j46316927320529_3_alg».proof.Proof.LibSegmentOfRows

set_option maxRecDepth 16384

noncomputable section

open Idealize.ShloMosaic Idealize.ShloMosaic.TcCoe Idealize.SL.Sem Idealize.ShloMosaic.ValueIdx
open scoped BigOperators

namespace Cert.KernelIdeal.Hand

open Cert.KernelIdeal Cert.KernelIdeal.Gen Cert.Gcn

/-- The aggregation of a table of width 8 at (k, e). -/
theorem agg8T_apply (T : (⟨2, ![100000, 8]⟩ : Shape).Idx → EReal) (src dst : (⟨1, ![900000]⟩ : Shape).Idx → BitVec 32)
    (k : Fin 100000) (e : Fin 8) :
    agg8T (F := Ideal) T src dst (ix2 k e)
      = ∑ n : Fin 900000, if hitOf dst n k then T (ix2 (rowOf 100000 (by decide) 100000#32 src n) e) else 0 :=
  SegmentOfRows.segment_of_rows_apply (by decide) scatter_S100000x8_S900000x1_S900000x8_1_0_0_1_wf
    gather_S100000x8_S900000x1_S900000x8_1_0_n_n_0_1_18 rfl rfl rfl rfl rfl
    bcast_S_S100000x8 bcast_S900000_S900000x1_0 bcast_S_S900000 100000#32 T src dst k e

/-- The aggregation of a table of width 256 at (k, f). -/
theorem agg256T_apply (T : (⟨2, ![100000, 256]⟩ : Shape).Idx → EReal) (src dst : (⟨1, ![900000]⟩ : Shape).Idx → BitVec 32)
    (k : Fin 100000) (f : Fin 256) :
    agg256T (F := Ideal) T src dst (ix2 k f)
      = ∑ n : Fin 900000, if hitOf dst n k then T (ix2 (rowOf 100000 (by decide) 100000#32 src n) f) else 0 :=
  SegmentOfRows.segment_of_rows_apply (by decide) scatter_S100000x256_S900000x1_S900000x256_1_0_0_1_wf
    gather_S100000x256_S900000x1_S900000x256_1_0_n_n_0_1_1256 rfl rfl rfl rfl rfl
    bcast_S_S100000x256 bcast_S900000_S900000x1_0 bcast_S_S900000 100000#32 T src dst k f

/-- A node's degree as the host accumulates it. -/
theorem degT_apply (a1 : (⟨2, ![2, 800000]⟩ : Shape).Idx → BitVec 32) (i : Fin 100000) :
    degT (F := Ideal) a1 (ix1 i) = degOf (dstT (F := Ideal) a1) i :=
  SegmentOfRows.degree_apply scatter_S100000_S900000x1_S900000_n_0_0_1_wf bcast_S_S100000 bcast_S900000_S900000x1_0 bcast_S_S900000
    (dstT (F := Ideal) a1) i

/-- The factor column at (i, 0) is the specification's factor of node i. -/
theorem dcolT_apply (a1 : (⟨2, ![2, 800000]⟩ : Shape).Idx → BitVec 32) (i : Fin 100000) :
    dcolT (F := Ideal) a1 (ix2 i (0 : Fin 1)) = dOf (dstT (F := Ideal) a1) i :=
  SegmentOfRows.factor_col_apply bcast_S_S100000 shapeCasts_S100000_S100000x1 (dstT (F := Ideal) a1) (degT (F := Ideal) a1)
    (degT_apply a1) i

end Cert.KernelIdeal.Hand

end
-- ==== Proof.Region0.lean ====
/-
  The first pallas_call's result array, entry by entry: row p of x times column e of W1, scaled by node p's factor.
-/
import proofs.«424020_j46316927320529_3_alg».proof.Proof.Gen.KernelIdeal.Frame
import proofs.«424020_j46316927320529_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen

-- the TensorCore's buffer contents when the region is entered
variable (V : (c : Dev nD) → (b : Ref sig .tc) → Buf (Elt Ideal) ((c : Thread nD τ).loc b))

-- the region's arrays as it finds them, each at its literal type
abbrev r0X (c : Dev nD) : S100000x128.Idx → EReal := V c main_arg0
abbrev r0W (c : Dev nD) : S128x8.Idx → EReal := V c main_arg2
abbrev r0D (c : Dev nD) : S100000x1.Idx → EReal := V c main_v15
/-- The result array after the region's last write-back. -/
abbrev r0Out (c : Dev nD) : S100000x8.Idx → EReal := (dat0 (F := Ideal) V c).arrAt 3 cfg0.N

/-! ## The body's arithmetic at one entry of its block -/

/-- The block product's left operand index: output row on the first axis … -/
theorem lhs_xw1_0 (i : S5000x8.Idx) (q : dot_S5000x128_S128x8_S5000x8_1_0_0_1_n_n.contr.Idx) :
    (dot_S5000x128_S128x8_S5000x8_1_0_0_1_n_n.lhsIdx i q 0).val = (i 0).val := by
  unfold DotDims.lhsIdx
  rw [dif_neg (show ¬(0 : Fin S5000x128.rank) ∈ dot_S5000x128_S128x8_S5000x8_1_0_0_1_n_n.lhsBatch by decide), dif_pos (show (0 : Fin S5000x128.rank) ∈ dot_S5000x128_S128x8_S5000x8_1_0_0_1_n_n.lhsNonContracting by decide)]
  rfl
/-- … and the summation index on the second. -/
theorem lhs_xw1_1 (i : S5000x8.Idx) (q : dot_S5000x128_S128x8_S5000x8_1_0_0_1_n_n.contr.Idx) :
    (dot_S5000x128_S128x8_S5000x8_1_0_0_1_n_n.lhsIdx i q 1).val = (q ⟨0, by decide⟩).val :=
  dot_S5000x128_S128x8_S5000x8_1_0_0_1_n_n.lhsIdx_val_of_single rfl i q
/-- The right operand index: the summation index on the first axis … -/
theorem rhs_xw1_0 (i : S5000x8.Idx) (q : dot_S5000x128_S128x8_S5000x8_1_0_0_1_n_n.contr.Idx) :
    (dot_S5000x128_S128x8_S5000x8_1_0_0_1_n_n.rhsIdx i q 0).val = (q ⟨0, by decide⟩).val :=
  dot_S5000x128_S128x8_S5000x8_1_0_0_1_n_n.rhsIdx_val_of_single rfl i q
/-- … and the output column on the second. -/
theorem rhs_xw1_1 (i : S5000x8.Idx) (q : dot_S5000x128_S128x8_S5000x8_1_0_0_1_n_n.contr.Idx) :
    (dot_S5000x128_S128x8_S5000x8_1_0_0_1_n_n.rhsIdx i q 1).val = (i 1).val := by
  unfold DotDims.rhsIdx
  rw [dif_neg (show ¬(1 : Fin S128x8.rank) ∈ dot_S5000x128_S128x8_S5000x8_1_0_0_1_n_n.rhsBatch by decide), dif_pos (show (1 : Fin S128x8.rank) ∈ dot_S5000x128_S128x8_S5000x8_1_0_0_1_n_n.rhsNonContracting by decide)]
  rfl

/-- The block product into a zero accumulator, at row p and column e: the sum over the 128 shared coordinates. -/
theorem xw1_matmul_apply (a : FVec Ideal S5000x128 .bf16) (b : FVec Ideal S128x8 .bf16) (p : Fin 5000) (e : Fin 8) :
    matmul (F := Ideal) dot_S5000x128_S128x8_S5000x8_1_0_0_1_n_n none a b (constant (F := Ideal) S5000x8 .f32 0x00000000#32) (ix2 p e)
      = ∑ l : Fin 128, a (ix2 p l) * b (ix2 l e) := by
  simp only [matmul]
  rw [Ideal.matmul_constant_zero_apply, ← Equiv.sum_comp (ValueIdx.contrEquiv1 dot_S5000x128_S128x8_S5000x8_1_0_0_1_n_n 128 rfl rfl).symm]
  refine Finset.sum_congr rfl fun k _ => ?_
  have hk := ValueIdx.contrEquiv1_symm_val dot_S5000x128_S128x8_S5000x8_1_0_0_1_n_n 128 rfl rfl k
  have el : dot_S5000x128_S128x8_S5000x8_1_0_0_1_n_n.lhsIdx (ix2 p e) ((ValueIdx.contrEquiv1 dot_S5000x128_S128x8_S5000x8_1_0_0_1_n_n 128 rfl rfl).symm k) = ix2 p k := funext fun a => Fin.ext (by
    match a with
    | ⟨0, _⟩ => exact lhs_xw1_0 _ _
    | ⟨1, _⟩ => exact (lhs_xw1_1 _ _).trans hk)
  have er : dot_S5000x128_S128x8_S5000x8_1_0_0_1_n_n.rhsIdx (ix2 p e) ((ValueIdx.contrEquiv1 dot_S5000x128_S128x8_S5000x8_1_0_0_1_n_n 128 rfl rfl).symm k) = ix2 k e := funext fun a => Fin.ext (by
    match a with
    | ⟨0, _⟩ => exact (rhs_xw1_0 _ _).trans hk
    | ⟨1, _⟩ => exact rhs_xw1_1 _ _)
  rw [el, er]

/-- The factor column spread over the 8 columns reads, at (p, e), the factor of row p. -/
theorem xw1_factor_apply (d : FVec Ideal S5000x1 .f32) (p : Fin 5000) (e : Fin 8) :
    broadcastTo S5000x8 (shapeCast S5000x1 d shapeCasts_S5000x1_S5000x1) broadcasts_S5000x1_S5000x8 (ix2 p e) = d (ix2 p (0 : Fin 1)) := by
  rw [shapeCast_self]
  exact broadcastTo_apply d broadcasts_S5000x1_S5000x8 (ix2 p e) (ix2 p (0 : Fin 1)) (fun a => match a with
    | ⟨0, _⟩ => by rfl
    | ⟨1, _⟩ => by rfl)

/-- The body's stored value at (p, e) of its block: row p of the x block times column e of W1, times the factor of row p. -/
theorem pay0_apply (x0 : Vec Ideal S5000x128 .f32) (x1 : Vec Ideal S128x8 .f32) (x2 : Vec Ideal S5000x1 .f32) (p : Fin 5000) (e : Fin 8) :
    k0_pay1 (F := Ideal) x0 x1 x2 (ix2 p e) = (∑ l : Fin 128, x0 (ix2 p l) * x1 (ix2 l e)) * x2 (ix2 p (0 : Fin 1)) := by
  unfold k0_pay1
  rw [mulf_apply, xw1_matmul_apply, xw1_factor_apply]
  rfl

/-! ## The whole result array as one function of the region's arrays -/

/-- Entry (p, e) of the product of a 100000-row table by a 128 × 8 matrix, row p scaled by its factor. -/
def xw1At (X : S100000x128.Idx → EReal) (W : S128x8.Idx → EReal) (Dd : S100000x1.Idx → EReal) (p : Fin 100000) (e : Fin 8) : EReal :=
  (∑ l : Fin 128, X (ix2 p l) * W (ix2 l e)) * Dd (ix2 p (0 : Fin 1))

/-- The scaled product as an array over the result's index set. -/
def xw1 (X : S100000x128.Idx → EReal) (W : S128x8.Idx → EReal) (Dd : S100000x1.Idx → EReal) : S100000x8.Idx → EReal :=
  fun i => xw1At X W Dd (i 0) (i 1)

/-- A block's stores and loads start at its corner. -/
theorem xw1_zero_off : (![0, 0] : Fin 2 → Nat) = fun _ => 0 := funext fun a => by fin_cases a <;> rfl

/-- Where each window's block sits at point t: the three row-blocked windows at block row t, column block 0; W1 whole. -/
theorem xw1_block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's block of x is row 5000 t + p of x. -/
theorem x_blk_apply (c : Dev nD) (t : Fin cfg0.N) (p : Fin 5000) (l : Fin 128) (P : Fin 100000) (hP : P.val = t.val * 5000 + p.val) :
    (iblk0 V c 0 t : Vec Ideal S5000x128 .f32) (ix2 p l) = r0X V c (ix2 P l) := by
  obtain ⟨e0, e1, -⟩ := xw1_block_indices t
  unfold iblk0
  rw [View.read_apply]
  show V c main_arg0 (((cfg0.win 0).blk t).view.emb (ix2 p l)) = V c main_arg0 (ix2 P l)
  refine congrArg (V c main_arg0) (funext fun a => Fin.ext ?_)
  match a with
  | ⟨0, _⟩ => show win0_0.index t (0 : Fin 2) * 5000 + 1 * p.val = P.val; rw [e0, hP]; omega
  | ⟨1, _⟩ => show win0_0.index t (1 : Fin 2) * 128 + 1 * l.val = l.val; rw [e1]; omega

/-- The W1 window holds all of W1 at every point. -/
theorem w1_blk_apply (c : Dev nD) (t : Fin cfg0.N) (l : Fin 128) (e : Fin 8) :
    (iblk0 V c 1 t : Vec Ideal S128x8 .f32) (ix2 l e) = r0W V c (ix2 l e) := by
  obtain ⟨-, -, e0, e1, -⟩ := xw1_block_indices t
  unfold iblk0
  rw [View.read_apply]
  show V c main_arg2 (((cfg0.win 1).blk t).view.emb (ix2 l e)) = V c main_arg2 (ix2 l e)
  refine congrArg (V c main_arg2) (funext fun a => Fin.ext ?_)
  match a with
  | ⟨0, _⟩ => show win0_1.index t (0 : Fin 2) * 128 + 1 * l.val = l.val; rw [e0]; omega
  | ⟨1, _⟩ => show win0_1.index t (1 : Fin 2) * 8 + 1 * e.val = e.val; rw [e1]; omega

/-- Row p of point t's block of the factors is the factor of node 5000 t + p. -/
theorem fac0_blk_apply (c : Dev nD) (t : Fin cfg0.N) (p : Fin 5000) (P : Fin 100000) (hP : P.val = t.val * 5000 + p.val) :
    (iblk0 V c 2 t : Vec Ideal S5000x1 .f32) (ix2 p (0 : Fin 1)) = r0D V c (ix2 P (0 : Fin 1)) := by
  obtain ⟨-, -, -, -, e0, e1, -⟩ := xw1_block_indices t
  unfold iblk0
  rw [View.read_apply]
  show V c main_v15 (((cfg0.win 2).blk t).view.emb (ix2 p (0 : Fin 1))) = V c main_v15 (ix2 P (0 : Fin 1))
  refine congrArg (V c main_v15) (funext fun a => Fin.ext ?_)
  match a with
  | ⟨0, _⟩ => show win0_2.index t (0 : Fin 2) * 5000 + 1 * p.val = P.val; rw [e0, hP]; omega
  | ⟨1, _⟩ => show win0_2.index t (1 : Fin 2) * 1 + 1 * 0 = 0; rw [e1]

/-- What point t writes back is block t of the scaled product of the arrays the region finds. -/
theorem flushed0_eq (c : Dev nD) (t : Fin cfg0.N) :
    (dat0 (F := Ideal) V c).flushed 3 t = ((cfg0.win 3).blk t).view.read (Elt Ideal) (xw1 (r0X V c) (r0W V c) (r0D V c)) := by
  show (cfg0.win 3).cut (grid0.coords t) ((dat0 (F := Ideal) V c).after 3 t) = _
  rw [after0_3]
  unfold out0_3
  rw [View.canon_unit_zero xw1_zero_off]
  simp only [View.ld_unit_zero (S := S5000x128) xw1_zero_off, View.ld_unit_zero (S := S128x8) xw1_zero_off, View.ld_unit_zero (S := S5000x1) xw1_zero_off]
  funext j
  obtain ⟨p, e, rfl⟩ : ∃ (p : Fin 5000) (e : Fin 8), j = ix2 p e := ⟨j 0, j 1, eq_ix2 j⟩
  have hN : grid0.N = 20 := N_0
  have ht : t.val < 20 := by have h : t.val < grid0.N := t.isLt; omega
  have hp : p.val < 5000 := p.isLt
  obtain ⟨P, hP⟩ : ∃ P : Fin 100000, P.val = t.val * 5000 + p.val := ⟨⟨t.val * 5000 + p.val, by omega⟩, rfl⟩
  obtain ⟨-, -, -, -, -, -, e0, e1⟩ := xw1_block_indices t
  have hemb : ((cfg0.win 3).blk t).view.emb (ix2 p e) = (ix2 P e : S100000x8.Idx) := funext fun a => Fin.ext (by
    match a with
    | ⟨0, _⟩ => show win0_3.index t (0 : Fin 2) * 5000 + 1 * p.val = P.val; rw [e0, hP]; omega
    | ⟨1, _⟩ => show win0_3.index t (1 : Fin 2) * 8 + 1 * e.val = e.val; rw [e1]; omega)
  show k0_pay1 (F := Ideal) (iblk0 V c 0 t) (iblk0 V c 1 t) (iblk0 V c 2 t) (ix2 p e)
      = xw1 (r0X V c) (r0W V c) (r0D V c) (((cfg0.win 3).blk t).view.emb (ix2 p e))
  rw [hemb]
  refine (pay0_apply (iblk0 V c 0 t) (iblk0 V c 1 t) (iblk0 V c 2 t) p e).trans ?_
  show _ = xw1At (r0X V c) (r0W V c) (r0D V c) P e
  unfold xw1At
  rw [fac0_blk_apply V c t p P hP]
  refine congrArg (· * r0D V c (ix2 P (0 : Fin 1))) (Finset.sum_congr rfl fun l _ => ?_)
  rw [x_blk_apply V c t p l P hP, w1_blk_apply V c t l e]

/-- An index of the result array lies in point t's block iff each coordinate lies in the block's range on its axis. -/
theorem mem_blk0 (t : Fin cfg0.N) (i : S100000x8.Idx) :
    i ∈ ((cfg0.win 3).blk t).view.set ↔ ∀ a : Fin 2, win0_3.index t a * S5000x8.size a ≤ (i a).val ∧ (i a).val < win0_3.index t a * S5000x8.size a + S5000x8.size a := by
  show i ∈ ((View.whole main_v16).slice (win0_3.rect t)).set ↔ _
  rw [View.set_slice_whole, Rect.mem_set_unit]
  exact Iff.rfl

/-- The twenty row blocks of 5000 rows fill the 100000 rows: row r lies in the block of point r / 5000. -/
theorem cover0 (i : S100000x8.Idx) : ∃ t : Fin cfg0.N, (cfg0.win 3).flush t = true ∧ i ∈ ((cfg0.win 3).blk t).view.set := by
  have hi0 : (i 0).val < 100000 := (i 0).isLt
  have hi1 : (i 1).val < 8 := (i 1).isLt
  have hN : grid0.N = 20 := N_0
  obtain ⟨t, ht⟩ : ∃ t : Fin cfg0.N, t.val = (i 0).val / 5000 :=
    ⟨⟨(i 0).val / 5000, by show (i 0).val / 5000 < grid0.N; rw [hN]; omega⟩, rfl⟩
  refine ⟨t, flush0_3 t, ?_⟩
  rw [mem_blk0]
  obtain ⟨-, -, -, -, -, -, e0, e1⟩ := xw1_block_indices t
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 8 ≤ (i 1).val ∧ (i 1).val < win0_3.index t (1 : Fin 2) * 8 + 8; rw [e1]; omega

/-- So after the last write-back the result array is the scaled product of the arrays the region found. -/
theorem arr0_eq (c : Dev nD) : r0Out V c = xw1 (r0X V c) (r0W V c) (r0D V c) :=
  (dat0 (F := Ideal) V c).arrAt_eq_of_cover 3 (xw1 (r0X V c) (r0W V c) (r0D V c)) (fun t _ => flushed0_eq V c t) cover0

/-- After the first region its result array holds, at (p, e), the product row of `x` by `W1` scaled by the factor of node p. -/
theorem arr0_apply (c : Dev nD) (p : Fin 100000) (e : Fin 8) :
    r0Out V c (ix2 p e)
      = Cert.Gcn.mm (fun i l => r0X V c (ix2 i l)) (fun l e => r0W V c (ix2 l e)) p e * r0D V c (ix2 p (0 : Fin 1)) := by
  rw [arr0_eq V c]
  rfl

end Cert.KernelIdeal.Hand

end
-- ==== Proof.Region1.lean ====
/-
  The second pallas_call's result array, entry by entry: the aggregated rows scaled, biased and clamped at zero,
  times W2, scaled again by the node's factor.
-/
import proofs.«424020_j46316927320529_3_alg».proof.Proof.Gen.KernelIdeal.Frame
import proofs.«424020_j46316927320529_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen

/-! ## The body's arithmetic at an entry of the block -/

/-- A column `[a, 1]` broadcast along the columns to `[a, b]` reads, at `(p, c)`, the column's entry of row `p`. -/
theorem xw2_col_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand is read at the result's row … -/
theorem lhs_xw2_0 (i : S5000x256.Idx) (q : dot_S5000x8_S8x256_S5000x256_1_0_0_1_n_n.contr.Idx) :
    (dot_S5000x8_S8x256_S5000x256_1_0_0_1_n_n.lhsIdx i q 0).val = (i 0).val := by
  unfold DotDims.lhsIdx
  rw [dif_neg (show ¬(0 : Fin S5000x8.rank) ∈ dot_S5000x8_S8x256_S5000x256_1_0_0_1_n_n.lhsBatch by decide), dif_pos (show (0 : Fin S5000x8.rank) ∈ dot_S5000x8_S8x256_S5000x256_1_0_0_1_n_n.lhsNonContracting by decide)]
  rfl
/-- … and the summation index, -/
theorem lhs_xw2_1 (i : S5000x256.Idx) (q : dot_S5000x8_S8x256_S5000x256_1_0_0_1_n_n.contr.Idx) :
    (dot_S5000x8_S8x256_S5000x256_1_0_0_1_n_n.lhsIdx i q 1).val = (q ⟨0, by decide⟩).val :=
  dot_S5000x8_S8x256_S5000x256_1_0_0_1_n_n.lhsIdx_val_of_single rfl i q
/-- the right operand at the summation index … -/
theorem rhs_xw2_0 (i : S5000x256.Idx) (q : dot_S5000x8_S8x256_S5000x256_1_0_0_1_n_n.contr.Idx) :
    (dot_S5000x8_S8x256_S5000x256_1_0_0_1_n_n.rhsIdx i q 0).val = (q ⟨0, by decide⟩).val :=
  dot_S5000x8_S8x256_S5000x256_1_0_0_1_n_n.rhsIdx_val_of_single rfl i q
/-- … and the result's column. -/
theorem rhs_xw2_1 (i : S5000x256.Idx) (q : dot_S5000x8_S8x256_S5000x256_1_0_0_1_n_n.contr.Idx) :
    (dot_S5000x8_S8x256_S5000x256_1_0_0_1_n_n.rhsIdx i q 1).val = (i 1).val := by
  unfold DotDims.rhsIdx
  rw [dif_neg (show ¬(1 : Fin S8x256.rank) ∈ dot_S5000x8_S8x256_S5000x256_1_0_0_1_n_n.rhsBatch by decide), dif_pos (show (1 : Fin S8x256.rank) ∈ dot_S5000x8_S8x256_S5000x256_1_0_0_1_n_n.rhsNonContracting by decide)]
  rfl

/-- The block's matrix product from a zero accumulator, at `(p, f)`: the sum over the 8 hidden channels. -/
theorem xw2_matmul_apply (l : FVec Ideal S5000x8 .bf16) (r : FVec Ideal S8x256 .bf16) (p : Fin 5000) (f : Fin 256) :
    matmul (F := Ideal) dot_S5000x8_S8x256_S5000x256_1_0_0_1_n_n none l r (constant (F := Ideal) S5000x256 .f32 0x00000000#32) (ix2 p f)
      = ∑ e : Fin 8, l (ix2 p e) * r (ix2 e f) := by
  refine (Ideal.matmul_constant_zero_apply dot_S5000x8_S8x256_S5000x256_1_0_0_1_n_n none l r (ix2 p f)).trans ?_
  rw [← Equiv.sum_comp (ValueIdx.contrEquiv1 dot_S5000x8_S8x256_S5000x256_1_0_0_1_n_n 8 rfl rfl).symm]
  refine Finset.sum_congr rfl fun k _ => ?_
  have hk := ValueIdx.contrEquiv1_symm_val dot_S5000x8_S8x256_S5000x256_1_0_0_1_n_n 8 rfl rfl k
  have el : dot_S5000x8_S8x256_S5000x256_1_0_0_1_n_n.lhsIdx (ix2 p f) ((ValueIdx.contrEquiv1 dot_S5000x8_S8x256_S5000x256_1_0_0_1_n_n 8 rfl rfl).symm k) = ix2 p k := funext fun a => Fin.ext (by
    match a with
    | ⟨0, _⟩ => exact lhs_xw2_0 _ _
    | ⟨1, _⟩ => exact (lhs_xw2_1 _ _).trans hk)
  have er : dot_S5000x8_S8x256_S5000x256_1_0_0_1_n_n.rhsIdx (ix2 p f) ((ValueIdx.contrEquiv1 dot_S5000x8_S8x256_S5000x256_1_0_0_1_n_n 8 rfl rfl).symm k) = ix2 k f := funext fun a => Fin.ext (by
    match a with
    | ⟨0, _⟩ => exact (rhs_xw2_0 _ _).trans hk
    | ⟨1, _⟩ => exact rhs_xw2_1 _ _)
  rw [el, er]

/-- What the body stores at `(p, f)` of its block: row `p` of the loaded rows scaled by the row's factor, biased and clamped
    at zero, times column `f` of `W2`, scaled by the row's factor (the factor block is loaded twice). -/
theorem xw2_pay_apply (v0 : Vec Ideal S5000x8 .f32) (v2 : Vec Ideal S5000x1 .f32) (v6 : Vec Ideal S8 .f32)
    (v13 : Vec Ideal S8x256 .f32) (v16 : Vec Ideal S5000x1 .f32) (p : Fin 5000) (f : Fin 256) :
    k1_pay1 (F := Ideal) v0 v2 v6 v13 v16 (ix2 p f)
      = (∑ e : Fin 8, max (v0 (ix2 p e) * v2 (ix2 p (0 : Fin 1)) + v6 (ix1 e)) 0 * v13 (ix2 e f)) * v16 (ix2 p (0 : Fin 1)) := by
  unfold k1_pay1
  simp only [mulf_apply, xw2_matmul_apply, shapeCast_self, xw2_col_broadcast_apply, truncf_apply, maximumf_apply, addf_apply,
    broadcastTo_1b_ab_apply, shapeCast_a_1a_apply, broadcast_apply, Ideal.ofBits_def, Ideal.ofBits_zero_f32]

/-! ## The result array as one function of the region's arrays -/

/-- Entry `(p, f)` of the result from the aggregated rows `G`, the node factors `D`, the bias `B` and `W2`. -/
def xw2At (G : S100000x8.Idx → EReal) (D : S100000x1.Idx → EReal) (B : S8.Idx → EReal) (W : S8x256.Idx → EReal)
    (p : Fin 100000) (f : Fin 256) : EReal :=
  (∑ e : Fin 8, max (G (ix2 p e) * D (ix2 p (0 : Fin 1)) + B (ix1 e)) 0 * W (ix2 e f)) * D (ix2 p (0 : Fin 1))

/-- The whole result array, index by index. -/
def xw2 (G : S100000x8.Idx → EReal) (D : S100000x1.Idx → EReal) (B : S8.Idx → EReal) (W : S8x256.Idx → EReal) :
    S100000x256.Idx → EReal :=
  fun i => xw2At G D B W (i 0) (i 1)

theorem xw2_zero_off2 : (![0, 0] : Fin 2 → Nat) = fun _ => 0 := funext fun a => by fin_cases a <;> rfl
theorem xw2_zero_off1 : (![0] : Fin 1 → Nat) = fun _ => 0 := funext fun a => by fin_cases a; rfl

/-- The windows' block indices over the grid: the rows, the factors and the result move down with the point, one block of
    5000 rows each; the bias and `W2` stay at their one block. -/
theorem xw2_block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

-- the TensorCore's buffer contents when the region is entered
variable (V : (c : Dev nD) → (b : Ref sig .tc) → Buf (Elt Ideal) ((c : Thread nD τ).loc b))

-- the region's arrays as it finds them, each at its literal type
abbrev r1G (c : Dev nD) : S100000x8.Idx → EReal := V c main_v26
abbrev r1D (c : Dev nD) : S100000x1.Idx → EReal := V c main_v15
abbrev r1B (c : Dev nD) : S8.Idx → EReal := V c main_arg3
abbrev r1W (c : Dev nD) : S8x256.Idx → EReal := V c main_arg4
/-- The result array after the region's last write-back. -/
abbrev r1Out (c : Dev nD) : S100000x256.Idx → EReal := (dat1 (F := Ideal) V c).arrAt 4 cfg1.N

/-! ## The input blocks at a point, as rows of the arrays -/

/-- Row `p` of the rows' block at point `t` is row `5000 t + p` of the aggregated rows. -/
theorem xw2_rows_blk_apply (c : Dev nD) (t : Fin cfg1.N) (p : Fin 5000) (e : Fin 8) (P : Fin 100000)
    (hP : P.val = t.val * 5000 + p.val) :
    (iblk1 V c 0 t : Vec Ideal S5000x8 .f32) (ix2 p e) = r1G V c (ix2 P e) := by
  obtain ⟨e0, e1, -⟩ := xw2_block_indices t
  unfold iblk1
  rw [View.read_apply]
  show V c main_v26 _ = V c main_v26 _
  congr 1
  funext a; apply Fin.ext
  match a with
  | ⟨0, _⟩ => show win1_0.index t (0 : Fin 2) * 5000 + 1 * p.val = P.val; omega
  | ⟨1, _⟩ => show win1_0.index t (1 : Fin 2) * 8 + 1 * e.val = e.val; omega

/-- Row `p` of the factors' block at point `t` is the factor of node `5000 t + p`. -/
theorem xw2_fac_blk_apply (c : Dev nD) (t : Fin cfg1.N) (p : Fin 5000) (P : Fin 100000)
    (hP : P.val = t.val * 5000 + p.val) :
    (iblk1 V c 1 t : Vec Ideal S5000x1 .f32) (ix2 p (0 : Fin 1)) = r1D V c (ix2 P (0 : Fin 1)) := by
  obtain ⟨-, -, e2, e3, -⟩ := xw2_block_indices t
  unfold iblk1
  rw [View.read_apply]
  show V c main_v15 _ = V c main_v15 _
  congr 1
  funext a; apply Fin.ext
  match a with
  | ⟨0, _⟩ => show win1_1.index t (0 : Fin 2) * 5000 + 1 * p.val = P.val; omega
  | ⟨1, _⟩ => show win1_1.index t (1 : Fin 2) * 1 + 1 * 0 = 0; omega

/-- The bias block is the whole bias at every point. -/
theorem xw2_bias_blk_apply (c : Dev nD) (t : Fin cfg1.N) (e : Fin 8) :
    (iblk1 V c 2 t : Vec Ideal S8 .f32) (ix1 e) = r1B V c (ix1 e) := by
  obtain ⟨-, -, -, -, e4, -⟩ := xw2_block_indices t
  unfold iblk1
  rw [View.read_apply]
  show V c main_arg3 _ = V c main_arg3 _
  congr 1
  funext a; apply Fin.ext
  match a with
  | ⟨0, _⟩ => show win1_2.index t (0 : Fin 1) * 8 + 1 * e.val = e.val; omega

/-- The block of `W2` is the whole of `W2` at every point. -/
theorem xw2_w_blk_apply (c : Dev nD) (t : Fin cfg1.N) (e : Fin 8) (f : Fin 256) :
    (iblk1 V c 3 t : Vec Ideal S8x256 .f32) (ix2 e f) = r1W V c (ix2 e f) := by
  obtain ⟨-, -, -, -, -, e5, e6, -⟩ := xw2_block_indices t
  unfold iblk1
  rw [View.read_apply]
  show V c main_arg4 _ = V c main_arg4 _
  congr 1
  funext a; apply Fin.ext
  match a with
  | ⟨0, _⟩ => show win1_3.index t (0 : Fin 2) * 8 + 1 * e.val = e.val; omega
  | ⟨1, _⟩ => show win1_3.index t (1 : Fin 2) * 256 + 1 * f.val = f.val; omega

/-! ## What a point writes back, the cover, the array -/

/-- What point `t` writes back is block `t` of `xw2` of the region's arrays. -/
theorem flushed1_eq (c : Dev nD) (t : Fin cfg1.N) :
    (dat1 (F := Ideal) V c).flushed 4 t
      = ((cfg1.win 4).blk t).view.read (Elt Ideal) (xw2 (r1G V c) (r1D V c) (r1B V c) (r1W V c)) := by
  show (cfg1.win 4).cut (grid1.coords t) ((dat1 V c).after 4 t) = _
  rw [after1_4]
  unfold out1_4
  rw [View.canon_unit_zero xw2_zero_off2]
  simp only [View.ld_unit_zero (S := S5000x8) xw2_zero_off2, View.ld_unit_zero (S := S5000x1) xw2_zero_off2,
    View.ld_unit_zero (S := S8) xw2_zero_off1, View.ld_unit_zero (S := S8x256) xw2_zero_off2]
  funext j
  obtain ⟨p, q, rfl⟩ : ∃ (p : Fin 5000) (q : Fin 256), j = ix2 p q := ⟨j 0, j 1, eq_ix2 j⟩
  obtain ⟨-, -, -, -, -, -, -, e7, e8⟩ := xw2_block_indices t
  have hN : cfg1.N = 20 := N_1
  have hP : t.val * 5000 + p.val < 100000 := by have := t.isLt; omega
  have hemb : ((cfg1.win 4).blk t).view.emb (ix2 p q) = ix2 (⟨t.val * 5000 + p.val, hP⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 256 + 1 * q.val = q.val; omega
  show k1_pay1 (F := Ideal) (iblk1 V c 0 t) (iblk1 V c 1 t) (iblk1 V c 2 t) (iblk1 V c 3 t) (iblk1 V c 1 t) (ix2 p q)
      = xw2 (r1G V c) (r1D V c) (r1B V c) (r1W V c) (((cfg1.win 4).blk t).view.emb (ix2 p q))
  rw [hemb]
  refine (xw2_pay_apply (iblk1 V c 0 t) (iblk1 V c 1 t) (iblk1 V c 2 t) (iblk1 V c 3 t) (iblk1 V c 1 t) p q).trans ?_
  show _ = xw2At (r1G V c) (r1D V c) (r1B V c) (r1W V c) (⟨t.val * 5000 + p.val, hP⟩ : Fin 100000) q
  unfold xw2At
  rw [xw2_fac_blk_apply V c t p ⟨t.val * 5000 + p.val, hP⟩ rfl]
  refine congrArg (· * r1D V c (ix2 (⟨t.val * 5000 + p.val, hP⟩ : Fin 100000) (0 : Fin 1))) (Finset.sum_congr rfl fun e _ => ?_)
  rw [xw2_rows_blk_apply V c t p e ⟨t.val * 5000 + p.val, hP⟩ rfl, xw2_bias_blk_apply V c t e, xw2_w_blk_apply V c t e q]

/-- An index of the array is in point `t`'s block iff each coordinate is in the block's range on its axis. -/
theorem mem_blk1 (t : Fin cfg1.N) (i : S100000x256.Idx) :
    i ∈ ((cfg1.win 4).blk t).view.set ↔ ∀ a : Fin 2, win1_4.index t a * S5000x256.size a ≤ (i a).val ∧ (i a).val < win1_4.index t a * S5000x256.size a + S5000x256.size a := by
  show i ∈ ((View.whole main_v27).slice (win1_4.rect t)).set ↔ _
  rw [View.set_slice_whole, Rect.mem_set_unit]
  exact Iff.rfl

/-- The twenty blocks of 5000 rows cover the array: row `r` lies in the block of point `r / 5000`. -/
theorem cover1 (i : S100000x256.Idx) :
    ∃ t : Fin cfg1.N, (cfg1.win 4).flush t = true ∧ i ∈ ((cfg1.win 4).blk t).view.set := by
  have h0 : (i 0).val < 100000 := (i 0).isLt
  have h1 : (i 1).val < 256 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, -, -, e7, e8⟩ := xw2_block_indices t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 256 ≤ (i 1).val ∧ (i 1).val < win1_4.index t (1 : Fin 2) * 256 + 256; omega

/-- So the result array ends holding `xw2` of the region's arrays. -/
theorem arr1_eq (c : Dev nD) : r1Out V c = xw2 (r1G V c) (r1D V c) (r1B V c) (r1W V c) :=
  (dat1 (F := Ideal) V c).arrAt_eq_of_cover 4 (xw2 (r1G V c) (r1D V c) (r1B V c) (r1W V c))
    (fun t _ => flushed1_eq V c t) cover1

/-- After the second region its result array holds, at (p, f), row p of `max (agg · d + b1) 0` times column f of `W2`,
    scaled by the factor of node p. -/
theorem arr1_apply (c : Dev nD) (p : Fin 100000) (f : Fin 256) :
    r1Out V c (ix2 p f)
      = Cert.Gcn.mm (fun i e => max (r1G V c (ix2 i e) * r1D V c (ix2 i (0 : Fin 1)) + r1B V c (ix1 e)) 0)
            (fun e f => r1W V c (ix2 e f)) p f
          * r1D V c (ix2 p (0 : Fin 1)) := by
  exact (congrFun (arr1_eq V c) (ix2 p f)).trans rfl

end Cert.KernelIdeal.Hand

end
-- ==== Proof.Region2.lean ====
/-
  The third pallas_call's result array, entry by entry: the aggregated rows scaled and biased, then the dense tail.
-/
import proofs.«424020_j46316927320529_3_alg».proof.Proof.Gen.KernelIdeal.Frame
import proofs.«424020_j46316927320529_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen

-- the TensorCore's buffer contents when the region is entered
variable (V : (c : Dev nD) → (b : Ref sig .tc) → Buf (Elt Ideal) ((c : Thread nD τ).loc b))

-- the region's arrays as it finds them, each at its literal type
abbrev r2G (c : Dev nD) : S100000x256.Idx → EReal := V c main_v37
abbrev r2D (c : Dev nD) : S100000x1.Idx → EReal := V c main_v15
abbrev r2B (c : Dev nD) : S256.Idx → EReal := V c main_arg5
abbrev r2Wl1 (c : Dev nD) : S256x256.Idx → EReal := V c main_arg6
abbrev r2Bl1 (c : Dev nD) : S256.Idx → EReal := V c main_arg7
abbrev r2Wl2 (c : Dev nD) : S256x1.Idx → EReal := V c main_arg8
abbrev r2Bl2 (c : Dev nD) : S1.Idx → EReal := V c main_arg9
/-- The result array after the region's last write-back. -/
abbrev r2Out (c : Dev nD) : S100000x1.Idx → EReal := (dat2 (F := Ideal) V c).arrAt 7 cfg2.N

/-! ## The two products of the body, read at an entry -/

/-- The first product's left operand is read at the result's row … -/
theorem lhs_first_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
/-- … and at the summation index on its columns; -/
theorem lhs_first_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
/-- the right operand at the summation index on its rows … -/
theorem rhs_first_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
/-- … and at the result's column. -/
theorem rhs_first_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- The first product into a zero accumulator, at (p, e): row p of the left operand against column e of the right. -/
theorem first_product_apply {φ₁ φ₂ : FTy} (l : FVec Ideal S4000x256 φ₁) (r : FVec Ideal S256x256 φ₂) (p : Fin 4000) (e : Fin 256) :
    matmul (F := Ideal) dot_S4000x256_S256x256_S4000x256_1_0_0_1_n_n none l r (constant (F := Ideal) S4000x256 .f32 0x00000000#32) (ix2 p e)
      = ∑ k : Fin 256, l (ix2 p k) * r (ix2 k e) := by
  simp only [matmul]
  rw [Ideal.matmul_constant_zero_apply, ← Equiv.sum_comp (ValueIdx.contrEquiv1 dot_S4000x256_S256x256_S4000x256_1_0_0_1_n_n 256 rfl rfl).symm]
  refine Finset.sum_congr rfl fun k _ => ?_
  have hk := ValueIdx.contrEquiv1_symm_val dot_S4000x256_S256x256_S4000x256_1_0_0_1_n_n 256 rfl rfl k
  have el : dot_S4000x256_S256x256_S4000x256_1_0_0_1_n_n.lhsIdx (ix2 p e) ((ValueIdx.contrEquiv1 dot_S4000x256_S256x256_S4000x256_1_0_0_1_n_n 256 rfl rfl).symm k) = ix2 p k := funext fun a => Fin.ext (by
    match a with
    | ⟨0, _⟩ => exact lhs_first_0 _ _
    | ⟨1, _⟩ => exact (lhs_first_1 _ _).trans hk)
  have er : dot_S4000x256_S256x256_S4000x256_1_0_0_1_n_n.rhsIdx (ix2 p e) ((ValueIdx.contrEquiv1 dot_S4000x256_S256x256_S4000x256_1_0_0_1_n_n 256 rfl rfl).symm k) = ix2 k e := funext fun a => Fin.ext (by
    match a with
    | ⟨0, _⟩ => exact (rhs_first_0 _ _).trans hk
    | ⟨1, _⟩ => exact rhs_first_1 _ _)
  rw [el, er]

/-- The second product's left operand is read at the result's row … -/
theorem lhs_second_0 (i : S4000x1.Idx) (q : dot_S4000x256_S256x1_S4000x1_1_0_0_1_n_n.contr.Idx) :
    (dot_S4000x256_S256x1_S4000x1_1_0_0_1_n_n.lhsIdx i q 0).val = (i 0).val := by
  unfold DotDims.lhsIdx
  rw [dif_neg (show ¬(0 : Fin S4000x256.rank) ∈ dot_S4000x256_S256x1_S4000x1_1_0_0_1_n_n.lhsBatch by decide), dif_pos (show (0 : Fin S4000x256.rank) ∈ dot_S4000x256_S256x1_S4000x1_1_0_0_1_n_n.lhsNonContracting by decide)]
  rfl
/-- … and at the summation index on its columns; -/
theorem lhs_second_1 (i : S4000x1.Idx) (q : dot_S4000x256_S256x1_S4000x1_1_0_0_1_n_n.contr.Idx) :
    (dot_S4000x256_S256x1_S4000x1_1_0_0_1_n_n.lhsIdx i q 1).val = (q ⟨0, by decide⟩).val :=
  dot_S4000x256_S256x1_S4000x1_1_0_0_1_n_n.lhsIdx_val_of_single rfl i q
/-- the right operand at the summation index on its rows … -/
theorem rhs_second_0 (i : S4000x1.Idx) (q : dot_S4000x256_S256x1_S4000x1_1_0_0_1_n_n.contr.Idx) :
    (dot_S4000x256_S256x1_S4000x1_1_0_0_1_n_n.rhsIdx i q 0).val = (q ⟨0, by decide⟩).val :=
  dot_S4000x256_S256x1_S4000x1_1_0_0_1_n_n.rhsIdx_val_of_single rfl i q
/-- … and at the result's one column. -/
theorem rhs_second_1 (i : S4000x1.Idx) (q : dot_S4000x256_S256x1_S4000x1_1_0_0_1_n_n.contr.Idx) :
    (dot_S4000x256_S256x1_S4000x1_1_0_0_1_n_n.rhsIdx i q 1).val = (i 1).val := by
  unfold DotDims.rhsIdx
  rw [dif_neg (show ¬(1 : Fin S256x1.rank) ∈ dot_S4000x256_S256x1_S4000x1_1_0_0_1_n_n.rhsBatch by decide), dif_pos (show (1 : Fin S256x1.rank) ∈ dot_S4000x256_S256x1_S4000x1_1_0_0_1_n_n.rhsNonContracting by decide)]
  rfl

/-- The second product into a zero accumulator, at (p, u): row p of the left operand against the right's column u. -/
theorem second_product_apply {φ₁ φ₂ : FTy} (l : FVec Ideal S4000x256 φ₁) (r : FVec Ideal S256x1 φ₂) (p : Fin 4000) (u : Fin 1) :
    matmul (F := Ideal) dot_S4000x256_S256x1_S4000x1_1_0_0_1_n_n none l r (constant (F := Ideal) S4000x1 .f32 0x00000000#32) (ix2 p u)
      = ∑ k : Fin 256, l (ix2 p k) * r (ix2 k u) := by
  simp only [matmul]
  rw [Ideal.matmul_constant_zero_apply, ← Equiv.sum_comp (ValueIdx.contrEquiv1 dot_S4000x256_S256x1_S4000x1_1_0_0_1_n_n 256 rfl rfl).symm]
  refine Finset.sum_congr rfl fun k _ => ?_
  have hk := ValueIdx.contrEquiv1_symm_val dot_S4000x256_S256x1_S4000x1_1_0_0_1_n_n 256 rfl rfl k
  have el : dot_S4000x256_S256x1_S4000x1_1_0_0_1_n_n.lhsIdx (ix2 p u) ((ValueIdx.contrEquiv1 dot_S4000x256_S256x1_S4000x1_1_0_0_1_n_n 256 rfl rfl).symm k) = ix2 p k := funext fun a => Fin.ext (by
    match a with
    | ⟨0, _⟩ => exact lhs_second_0 _ _
    | ⟨1, _⟩ => exact (lhs_second_1 _ _).trans hk)
  have er : dot_S4000x256_S256x1_S4000x1_1_0_0_1_n_n.rhsIdx (ix2 p u) ((ValueIdx.contrEquiv1 dot_S4000x256_S256x1_S4000x1_1_0_0_1_n_n 256 rfl rfl).symm k) = ix2 k u := funext fun a => Fin.ext (by
    match a with
    | ⟨0, _⟩ => exact (rhs_second_0 _ _).trans hk
    | ⟨1, _⟩ => exact rhs_second_1 _ _)
  rw [el, er]

/-! ## The body's result at an entry -/

/-- An `[a, 1]` column broadcast to `[a, b]` reads, at (p, c), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at (p, q): the dense tail of row p of the block's rows scaled by their factors and biased. -/
theorem payload_apply (v0 : Vec Ideal S4000x256 .f32) (v2 : Vec Ideal S4000x1 .f32) (v6 : Vec Ideal S256 .f32) (v11 : Vec Ideal S256x256 .f32)
    (v14 : Vec Ideal S256 .f32) (v21 : Vec Ideal S256x1 .f32) (v24 : Vec Ideal S1 .f32) (p : Fin 4000) (q : Fin 1) :
    k2_pay1 (F := Ideal) v0 v2 v6 v11 v14 v21 v24 (ix2 p q)
      = Cert.Gcn.tail (fun f j => v11 (ix2 f j)) (fun j => v14 (ix1 j)) (fun j u => v21 (ix2 j u)) (fun u => v24 (ix1 u))
          (fun k f => v0 (ix2 k f) * v2 (ix2 k (0 : Fin 1)) + v6 (ix1 f)) p := by
  obtain rfl : q = 0 := Subsingleton.elim _ _
  unfold k2_pay1 Cert.Gcn.tail Cert.Gcn.mm
  rw [addf_apply, second_product_apply]
  simp only [truncf_apply, maximumf_apply, addf_apply, mulf_apply, first_product_apply, broadcast_apply,
    broadcastTo_1b_ab_apply, broadcastTo_a1_ab_apply, shapeCast_a_1a_apply, shapeCast_self, Ideal.ofBits_def, Ideal.ofBits_zero_f32]

/-! ## The result array as one function of the region's arrays -/

/-- The dense tail reads one row of its input: two inputs that agree on a row give the same value there. -/
theorem tail_row {C C' D E : ℕ} (Wl1 : Fin D → Fin E → EReal) (bl1 : Fin E → EReal) (Wl2 : Fin E → Fin 1 → EReal) (bl2 : Fin 1 → EReal)
    (h2 : Fin C → Fin D → EReal) (h2' : Fin C' → Fin D → EReal) (k : Fin C) (k' : Fin C') (h : ∀ f, h2 k f = h2' k' f) :
    Cert.Gcn.tail Wl1 bl1 Wl2 bl2 h2 k = Cert.Gcn.tail Wl1 bl1 Wl2 bl2 h2' k' := by
  unfold Cert.Gcn.tail Cert.Gcn.mm
  simp only [h]

/-- What the region leaves in its result array: at row r, the dense tail of row r of the aggregated rows, each scaled by
    its node's factor and biased. -/
def tailArr (g : S100000x256.Idx → EReal) (d : S100000x1.Idx → EReal) (b : S256.Idx → EReal) (wl1 : S256x256.Idx → EReal)
    (bl1 : S256.Idx → EReal) (wl2 : S256x1.Idx → EReal) (bl2 : S1.Idx → EReal) : S100000x1.Idx → EReal := fun i =>
  Cert.Gcn.tail (fun f j => wl1 (ix2 f j)) (fun j => bl1 (ix1 j)) (fun j u => wl2 (ix2 j u)) (fun u => bl2 (ix1 u))
    (fun k f => g (ix2 k f) * d (ix2 k (0 : Fin 1)) + b (ix1 f)) (i 0 : Fin 100000)

/-- One block's stored value at (p, q) is the array function at row r, when the block's row p of the aggregated rows and
    of the factors is the arrays' row r and the small operands are the whole small arrays. -/
theorem block_entry (g : S100000x256.Idx → EReal) (d : S100000x1.Idx → EReal) (b : S256.Idx → EReal) (wl1 : S256x256.Idx → EReal)
    (bl1 : S256.Idx → EReal) (wl2 : S256x1.Idx → EReal) (bl2 : S1.Idx → EReal)
    (x0 : Vec Ideal S4000x256 .f32) (x1 : Vec Ideal S4000x1 .f32) (x2 : Vec Ideal S256 .f32) (x3 : Vec Ideal S256x256 .f32)
    (x4 : Vec Ideal S256 .f32) (x5 : Vec Ideal S256x1 .f32) (x6 : Vec Ideal S1 .f32)
    (p : Fin 4000) (q : Fin 1) (r : Fin 100000) (u : Fin 1)
    (h0 : ∀ f : Fin 256, x0 (ix2 p f) = g (ix2 r f)) (h1 : x1 (ix2 p (0 : Fin 1)) = d (ix2 r (0 : Fin 1)))
    (h2 : x2 = b) (h3 : x3 = wl1) (h4 : x4 = bl1) (h5 : x5 = wl2) (h6 : x6 = bl2) :
    k2_pay1 (F := Ideal) x0 x1 x2 x3 x4 x5 x6 (ix2 p q) = tailArr g d b wl1 bl1 wl2 bl2 (ix2 r u) := by
  subst h2 h3 h4 h5 h6
  rw [payload_apply]
  unfold tailArr
  exact tail_row _ _ _ _ _ _ p r (fun f => by rw [h0 f, h1])

/-! ## From the blocks to the array -/

theorem zero_offsets_two : (![0, 0] : Fin 2 → Nat) = fun _ => 0 := funext fun a => by fin_cases a <;> rfl
theorem zero_offsets_one : (![0] : Fin 1 → Nat) = fun _ => 0 := funext fun a => by fin_cases a; rfl

/-- The printed index maps over the grid: the two row-blocked inputs and the result move with the point, on the row axis;
    the five small operands stay at block 0. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- Row p of point t's block of the aggregated rows is row 4000·t + p of the array. -/
theorem block_rows (c : Dev nD) (t : Fin cfg2.N) (p : Fin 4000) (f : Fin 256) (r : Fin 100000) (hr : r.val = 4000 * t.val + p.val) :
    (iblk2 (F := Ideal) V c 0 t : Vec Ideal S4000x256 .f32) (ix2 p f) = r2G V c (ix2 r f) := by
  obtain ⟨e0, e1, -⟩ := index_maps t
  unfold iblk2
  show V c main_v37 (((cfg2.win 0).blk t).view.emb (ix2 p f)) = V c main_v37 (ix2 r f)
  congr 1
  funext a; apply Fin.ext
  match a with
  | ⟨0, _⟩ => show win2_0.index t (0 : Fin 2) * 4000 + 1 * p.val = r.val; rw [e0, hr]; omega
  | ⟨1, _⟩ => show win2_0.index t (1 : Fin 2) * 256 + 1 * f.val = f.val; rw [e1]; omega

/-- Row p of point t's block of the node factors is row 4000·t + p of the array. -/
theorem block_factors (c : Dev nD) (t : Fin cfg2.N) (p : Fin 4000) (r : Fin 100000) (hr : r.val = 4000 * t.val + p.val) :
    (iblk2 (F := Ideal) V c 1 t : Vec Ideal S4000x1 .f32) (ix2 p (0 : Fin 1)) = r2D V c (ix2 r (0 : Fin 1)) := by
  obtain ⟨-, -, e0, e1, -⟩ := index_maps t
  unfold iblk2
  show V c main_v15 (((cfg2.win 1).blk t).view.emb (ix2 p (0 : Fin 1))) = V c main_v15 (ix2 r (0 : Fin 1))
  congr 1
  funext a; apply Fin.ext
  match a with
  | ⟨0, _⟩ => show win2_1.index t (0 : Fin 2) * 4000 + 1 * p.val = r.val; rw [e0, hr]; omega
  | ⟨1, _⟩ => show win2_1.index t (1 : Fin 2) * 1 + 1 * 0 = 0; rw [e1]

/-- The first bias's one block is the whole array, at every point. -/
theorem block_bias (c : Dev nD) (t : Fin cfg2.N) : (iblk2 (F := Ideal) V c 2 t : Vec Ideal S256 .f32) = r2B V c := by
  obtain ⟨-, -, -, -, e0, -⟩ := index_maps t
  unfold iblk2
  funext y
  show V c main_arg5 (((cfg2.win 2).blk t).view.emb y) = V c main_arg5 y
  congr 1
  funext a; apply Fin.ext
  match a with
  | ⟨0, _⟩ => show win2_2.index t (0 : Fin 1) * 256 + 1 * (y 0).val = (y 0).val; rw [e0]; omega

/-- So is the first dense weight's, -/
theorem block_wl1 (c : Dev nD) (t : Fin cfg2.N) : (iblk2 (F := Ideal) V c 3 t : Vec Ideal S256x256 .f32) = r2Wl1 V c := by
  obtain ⟨-, -, -, -, -, e0, e1, -⟩ := index_maps t
  unfold iblk2
  funext y
  show V c main_arg6 (((cfg2.win 3).blk t).view.emb y) = V c main_arg6 y
  congr 1
  funext a; apply Fin.ext
  match a with
  | ⟨0, _⟩ => show win2_3.index t (0 : Fin 2) * 256 + 1 * (y 0).val = (y 0).val; rw [e0]; omega
  | ⟨1, _⟩ => show win2_3.index t (1 : Fin 2) * 256 + 1 * (y 1).val = (y 1).val; rw [e1]; omega

/-- the first dense bias's, -/
theorem block_bl1 (c : Dev nD) (t : Fin cfg2.N) : (iblk2 (F := Ideal) V c 4 t : Vec Ideal S256 .f32) = r2Bl1 V c := by
  obtain ⟨-, -, -, -, -, -, -, e0, -⟩ := index_maps t
  unfold iblk2
  funext y
  show V c main_arg7 (((cfg2.win 4).blk t).view.emb y) = V c main_arg7 y
  congr 1
  funext a; apply Fin.ext
  match a with
  | ⟨0, _⟩ => show win2_4.index t (0 : Fin 1) * 256 + 1 * (y 0).val = (y 0).val; rw [e0]; omega

/-- the second dense weight's, -/
theorem block_wl2 (c : Dev nD) (t : Fin cfg2.N) : (iblk2 (F := Ideal) V c 5 t : Vec Ideal S256x1 .f32) = r2Wl2 V c := by
  obtain ⟨-, -, -, -, -, -, -, -, e0, e1, -⟩ := index_maps t
  unfold iblk2
  funext y
  show V c main_arg8 (((cfg2.win 5).blk t).view.emb y) = V c main_arg8 y
  congr 1
  funext a; apply Fin.ext
  match a with
  | ⟨0, _⟩ => show win2_5.index t (0 : Fin 2) * 256 + 1 * (y 0).val = (y 0).val; rw [e0]; omega
  | ⟨1, _⟩ => show win2_5.index t (1 : Fin 2) * 1 + 1 * (y 1).val = (y 1).val; rw [e1]; omega

/-- and the second dense bias's. -/
theorem block_bl2 (c : Dev nD) (t : Fin cfg2.N) : (iblk2 (F := Ideal) V c 6 t : Vec Ideal S1 .f32) = r2Bl2 V c := by
  obtain ⟨-, -, -, -, -, -, -, -, -, -, e0, -⟩ := index_maps t
  unfold iblk2
  funext y
  show V c main_arg9 (((cfg2.win 6).blk t).view.emb y) = V c main_arg9 y
  congr 1
  funext a; apply Fin.ext
  match a with
  | ⟨0, _⟩ => show win2_6.index t (0 : Fin 1) * 1 + 1 * (y 0).val = (y 0).val; rw [e0]; omega

/-- WHAT POINT t WRITES BACK is block t of the array function of the region's arrays. -/
theorem flushed_eq (c : Dev nD) (t : Fin cfg2.N) :
    (dat2 (F := Ideal) V c).flushed 7 t
      = ((cfg2.win 7).blk t).view.read (Elt Ideal) (tailArr (r2G V c) (r2D V c) (r2B V c) (r2Wl1 V c) (r2Bl1 V c) (r2Wl2 V c) (r2Bl2 V c)) := by
  show (cfg2.win 7).cut (grid2.coords t) ((dat2 (F := Ideal) V c).after 7 t) = _
  rw [after2_7]
  unfold out2_7
  rw [View.canon_unit_zero zero_offsets_two]
  simp only [View.ld_unit_zero (S := S4000x256) zero_offsets_two, View.ld_unit_zero (S := S4000x1) zero_offsets_two,
    View.ld_unit_zero (S := S256) zero_offsets_one, View.ld_unit_zero (S := S256x256) zero_offsets_two,
    View.ld_unit_zero (S := S256x1) zero_offsets_two, View.ld_unit_zero (S := S1) zero_offsets_one]
  funext j
  obtain ⟨p, q, rfl⟩ : ∃ (p : Fin 4000) (q : Fin 1), j = ix2 p q := ⟨j 0, j 1, eq_ix2 j⟩
  obtain ⟨-, -, -, -, -, -, -, -, -, -, -, e0, e1⟩ := index_maps t
  have ht : t.val < 25 := by have h : t.val < grid2.N := t.isLt; rw [N_2] at h; exact h
  have hr : 4000 * t.val + p.val < 100000 := by have := p.isLt; omega
  have hemb : ((cfg2.win 7).blk t).view.emb (ix2 p q) = ix2 (⟨4000 * t.val + p.val, hr⟩ : Fin 100000) (0 : Fin 1) := by
    funext a; apply Fin.ext
    match a with
    | ⟨0, _⟩ => show win2_7.index t (0 : Fin 2) * 4000 + 1 * p.val = 4000 * t.val + p.val; rw [e0]; omega
    | ⟨1, _⟩ => show win2_7.index t (1 : Fin 2) * 1 + 1 * q.val = 0; rw [e1]; have := q.isLt; omega
  show k2_pay1 (F := Ideal) (iblk2 V c 0 t) (iblk2 V c 1 t) (iblk2 V c 2 t) (iblk2 V c 3 t) (iblk2 V c 4 t) (iblk2 V c 5 t) (iblk2 V c 6 t) (ix2 p q)
    = tailArr (r2G V c) (r2D V c) (r2B V c) (r2Wl1 V c) (r2Bl1 V c) (r2Wl2 V c) (r2Bl2 V c) (((cfg2.win 7).blk t).view.emb (ix2 p q))
  rw [hemb]
  exact block_entry (r2G V c) (r2D V c) (r2B V c) (r2Wl1 V c) (r2Bl1 V c) (r2Wl2 V c) (r2Bl2 V c)
    (iblk2 V c 0 t) (iblk2 V c 1 t) (iblk2 V c 2 t) (iblk2 V c 3 t) (iblk2 V c 4 t) (iblk2 V c 5 t) (iblk2 V c 6 t)
    p q ⟨4000 * t.val + p.val, hr⟩ 0
    (fun f => block_rows V c t p f ⟨4000 * t.val + p.val, hr⟩ rfl) (block_factors V c t p ⟨4000 * t.val + p.val, hr⟩ rfl)
    (block_bias V c t) (block_wl1 V c t) (block_bl1 V c t) (block_wl2 V c t) (block_bl2 V c t)

/-- An index of the result array is in point t's block iff each coordinate is in the block's range on its axis. -/
theorem mem_blk (t : Fin cfg2.N) (i : S100000x1.Idx) :
    i ∈ ((cfg2.win 7).blk t).view.set ↔ ∀ a : Fin 2, win2_7.index t a * S4000x1.size a ≤ (i a).val ∧ (i a).val < win2_7.index t a * S4000x1.size a + S4000x1.size a := by
  show i ∈ ((View.whole main_v38).slice (win2_7.rect t)).set ↔ _
  rw [View.set_slice_whole, Rect.mem_set_unit]
  exact Iff.rfl

/-- The 25 blocks of 4000 rows tile the 100000 rows: row r lies in the block of point r / 4000, which is written back. -/
theorem covered (i : S100000x1.Idx) : ∃ t : Fin cfg2.N, (cfg2.win 7).flush t = true ∧ i ∈ ((cfg2.win 7).blk t).view.set := by
  have hi0 : (i 0).val < 100000 := (i 0).isLt
  have hi1 : (i 1).val < 1 := (i 1).isLt
  have hN : grid2.N = 25 := N_2
  obtain ⟨t, ht⟩ : ∃ t : Fin cfg2.N, t.val = (i 0).val / 4000 := ⟨⟨(i 0).val / 4000, by show _ < grid2.N; rw [hN]; omega⟩, rfl⟩
  refine ⟨t, flush2_7 t, ?_⟩
  obtain ⟨-, -, -, -, -, -, -, -, -, -, -, e0, e1⟩ := index_maps t
  rw [mem_blk]
  intro a
  match a with
  | ⟨0, _⟩ =>
    show win2_7.index t (0 : Fin 2) * 4000 ≤ (i 0).val ∧ (i 0).val < win2_7.index t (0 : Fin 2) * 4000 + 4000
    rw [e0, ht]; omega
  | ⟨1, _⟩ =>
    show win2_7.index t (1 : Fin 2) * 1 ≤ (i 1).val ∧ (i 1).val < win2_7.index t (1 : Fin 2) * 1 + 1
    rw [e1]; omega

/-- THE ARRAY after the region: the array function of the region's arrays, on every row. -/
theorem result_array (c : Dev nD) :
    r2Out V c = tailArr (r2G V c) (r2D V c) (r2B V c) (r2Wl1 V c) (r2Bl1 V c) (r2Wl2 V c) (r2Bl2 V c) :=
  (dat2 (F := Ideal) V c).arrAt_eq_of_cover 7 (tailArr (r2G V c) (r2D V c) (r2B V c) (r2Wl1 V c) (r2Bl1 V c) (r2Wl2 V c) (r2Bl2 V c))
    (fun t _ => flushed_eq V c t) covered

/-- After the third region its result array holds, at (p, q), the dense tail of row p of `agg · d + b2`. -/
theorem arr2_apply (c : Dev nD) (p : Fin 100000) (q : Fin 1) :
    r2Out V c (ix2 p q)
      = Cert.Gcn.tail (fun f j => r2Wl1 V c (ix2 f j)) (fun j => r2Bl1 V c (ix1 j)) (fun j u => r2Wl2 V c (ix2 j u)) (fun u => r2Bl2 V c (ix1 u))
          (fun k f => r2G V c (ix2 k f) * r2D V c (ix2 k (0 : Fin 1)) + r2B V c (ix1 f)) p := by
  exact congrFun (result_array V c) (ix2 p q)

end Cert.KernelIdeal.Hand

end
-- ==== Proof.KernelValue.lean ====
/-
  The kernel program's result, entry by entry, as the specification's chain.

  Along the run: the first call's result is the pre-scaled product `kR0`; the first aggregation sums its gathered rows;
  the second call's result is `kR1` over that; the second aggregation sums its gathered rows; the third call's result is
  the dense tail of the post-scaled, biased second aggregation, which is `kH2`.
-/
import proofs.«424020_j46316927320529_3_alg».proof.Proof.KernelChain
import proofs.«424020_j46316927320529_3_alg».proof.Proof.KernelHostRead
import proofs.«424020_j46316927320529_3_alg».proof.Proof.Region0
import proofs.«424020_j46316927320529_3_alg».proof.Proof.Region1
import proofs.«424020_j46316927320529_3_alg».proof.Proof.Region2
import proofs.«424020_j46316927320529_3_alg».proof.Proof.Spec
import proofs.«424020_j46316927320529_3_alg».proof.Proof.Msg

set_option maxRecDepth 16384

noncomputable section

open Idealize.ShloMosaic Idealize.ShloMosaic.TcCoe Idealize.SL.Sem Idealize.ShloMosaic.ValueIdx
open scoped BigOperators

namespace Cert.KernelIdeal.Hand

open Cert.KernelIdeal Cert.KernelIdeal.Gen Cert.Gcn

variable (m : (ℓ : Loc nD τ sig) → Buf (Elt Ideal) ℓ) (ρ : Dev nD → PrngReg)

-- the arguments as launched, each at its literal type
abbrev xA (c : Dev nD) : S100000x128.Idx → EReal := m ((c : Thread nD τ).loc main_arg0)
abbrev w1A (c : Dev nD) : S128x8.Idx → EReal := m ((c : Thread nD τ).loc main_arg2)
abbrev b1A (c : Dev nD) : S8.Idx → EReal := m ((c : Thread nD τ).loc main_arg3)
abbrev w2A (c : Dev nD) : S8x256.Idx → EReal := m ((c : Thread nD τ).loc main_arg4)
abbrev b2A (c : Dev nD) : S256.Idx → EReal := m ((c : Thread nD τ).loc main_arg5)
abbrev wl1A (c : Dev nD) : S256x256.Idx → EReal := m ((c : Thread nD τ).loc main_arg6)
abbrev bl1A (c : Dev nD) : S256.Idx → EReal := m ((c : Thread nD τ).loc main_arg7)
abbrev wl2A (c : Dev nD) : S256x1.Idx → EReal := m ((c : Thread nD τ).loc main_arg8)
abbrev bl2A (c : Dev nD) : S1.Idx → EReal := m ((c : Thread nD τ).loc main_arg9)

/-- The messages' source words. -/
abbrev srcW (c : Dev nD) : (⟨1, ![900000]⟩ : Shape).Idx → BitVec 32 := srcT (F := Ideal) (edges m c)
/-- The messages' destination words. -/
abbrev dstW (c : Dev nD) : (⟨1, ![900000]⟩ : Shape).Idx → BitVec 32 := dstT (F := Ideal) (edges m c)

/-- Which node a message hits, which row it gathers, a node's factor. -/
abbrev hitK (c : Dev nD) : Fin 900000 → Fin 100000 → Prop := hitOf (C := 100000) (dstW m c)
abbrev rowK (c : Dev nD) : Fin 900000 → Fin 100000 := rowOf 100000 (by decide) 100000#32 (srcW m c)
abbrev facK (c : Dev nD) : Fin 100000 → EReal := dOf (C := 100000) (dstW m c)

/-- The result array at the run's end. -/
abbrev resK (c : Dev nD) : S100000x1.Idx → EReal := W8 m ρ c (Proc.devRef .tc main_v38)

/-- The first call leaves the pre-scaled product. -/
theorem out0_eq (c : Dev nD) (p : Fin 100000) (e : Fin 8) :
    r0Out (V3 m ρ) c (ix2 p e) = kR0 (facK m c) (fun i l => xA m c (ix2 i l)) (fun l e => w1A m c (ix2 l e)) p e := by
  rw [arr0_apply]
  have hx : r0X (V3 m ρ) c = xA m c := V3_arg0 m ρ c
  have hw : r0W (V3 m ρ) c = w1A m c := V3_arg2 m ρ c
  have hd : r0D (V3 m ρ) c = dcolT (F := Ideal) (edges m c) := V3_v15 m ρ c
  rw [hx, hw, hd, dcolT_apply]
  rfl

/-- The first aggregation sums its gathered rows. -/
theorem agg1_eq (c : Dev nD) (k : Fin 100000) (e : Fin 8) :
    r1G (V5 m ρ) c (ix2 k e)
      = agg (hitK m c) (rowK m c) (kR0 (facK m c) (fun i l => xA m c (ix2 i l)) (fun l e => w1A m c (ix2 l e))) k e := by
  have h : r1G (V5 m ρ) c = agg8T (F := Ideal) (r0Out (V3 m ρ) c) (srcW m c) (dstW m c) := V5_v26 m ρ c
  rw [h, agg8T_apply]
  unfold agg
  refine Finset.sum_congr rfl fun n _ => ?_
  rw [out0_eq]

/-- The second call leaves the second pre-scaled product. -/
theorem out1_eq (c : Dev nD) (p : Fin 100000) (f : Fin 256) :
    r1Out (V5 m ρ) c (ix2 p f)
      = kR1 (hitK m c) (rowK m c) (facK m c) (fun i l => xA m c (ix2 i l)) (fun l e => w1A m c (ix2 l e)) (fun e => b1A m c (ix1 e))
          (fun e f => w2A m c (ix2 e f)) p f := by
  rw [arr1_apply]
  have hd : r1D (V5 m ρ) c = dcolT (F := Ideal) (edges m c) := V5_v15 m ρ c
  have hb : r1B (V5 m ρ) c = b1A m c := V5_arg3 m ρ c
  have hw : r1W (V5 m ρ) c = w2A m c := V5_arg4 m ρ c
  rw [hd, hb, hw, dcolT_apply]
  unfold kR1 kH1
  refine congrArg (fun A : Fin 100000 → Fin 8 → EReal => mm A (fun e f => w2A m c (ix2 e f)) p f * facK m c p)
    (funext fun i => funext fun e => ?_)
  rw [dcolT_apply, agg1_eq]

/-- The second aggregation sums its gathered rows. -/
theorem agg2_eq (c : Dev nD) (k : Fin 100000) (f : Fin 256) :
    r2G (V7 m ρ) c (ix2 k f)
      = agg (hitK m c) (rowK m c) (kR1 (hitK m c) (rowK m c) (facK m c) (fun i l => xA m c (ix2 i l)) (fun l e => w1A m c (ix2 l e))
          (fun e => b1A m c (ix1 e)) (fun e f => w2A m c (ix2 e f))) k f := by
  have h : r2G (V7 m ρ) c = agg256T (F := Ideal) (r1Out (V5 m ρ) c) (srcW m c) (dstW m c) := V7_v37 m ρ c
  rw [h, agg256T_apply]
  unfold agg
  refine Finset.sum_congr rfl fun n _ => ?_
  rw [out1_eq]

/-- THE KERNEL'S RESULT at (k, q): the dense tail of the second layer's row k. -/
theorem kernel_value (c : Dev nD) (k : Fin 100000) (q : Fin 1) :
    resK m ρ c (ix2 k q)
      = tail (fun f j => wl1A m c (ix2 f j)) (fun j => bl1A m c (ix1 j)) (fun j u => wl2A m c (ix2 j u)) (fun u => bl2A m c (ix1 u))
          (kH2 (hitK m c) (rowK m c) (facK m c) (fun i l => xA m c (ix2 i l)) (fun l e => w1A m c (ix2 l e)) (fun e => b1A m c (ix1 e))
            (fun e f => w2A m c (ix2 e f)) (fun f => b2A m c (ix1 f))) k := by
  have h : resK m ρ c = r2Out (V7 m ρ) c := W8_v38 m ρ c
  rw [h, arr2_apply]
  have hd : r2D (V7 m ρ) c = dcolT (F := Ideal) (edges m c) := V7_v15 m ρ c
  have h5 : r2B (V7 m ρ) c = b2A m c := V7_arg5 m ρ c
  have h6 : r2Wl1 (V7 m ρ) c = wl1A m c := V7_arg6 m ρ c
  have h7 : r2Bl1 (V7 m ρ) c = bl1A m c := V7_arg7 m ρ c
  have h8 : r2Wl2 (V7 m ρ) c = wl2A m c := V7_arg8 m ρ c
  have h9 : r2Bl2 (V7 m ρ) c = bl2A m c := V7_arg9 m ρ c
  rw [hd, h5, h6, h7, h8, h9]
  unfold kH2
  refine congrArg (fun h2 : Fin 100000 → Fin 256 → EReal =>
      tail (fun f j => wl1A m c (ix2 f j)) (fun j => bl1A m c (ix1 j)) (fun j u => wl2A m c (ix2 j u)) (fun u => bl2A m c (ix1 u)) h2 k)
    (funext fun k' => funext fun f => ?_)
  rw [dcolT_apply, agg2_eq]

end Cert.KernelIdeal.Hand

end
-- ==== Proof.LibGatherVec.lean ====
/-
  A gather of single entries of a vector, read at an index.

  A table `T : [N]` gathered at a column `idx : [R, 1]` of start indices with no offset axes, collapsed_slice_dims = [0],
  start_index_map = [0], index_vector_dim = 1 and slice sizes [1] has the result `[R]` whose entry `e` is an entry of the
  table. Read at `e` it is the table at `r`, where `r` is the start index `idx[e, 0]` read as a signed integer and clamped
  into `[0, N − 1]`: the table's one axis is start-indexed and collapsed, so its slice has extent one and the clamp's upper
  end is `N − 1`.

  The library states this for the index `Shape.Idx.ofFin e` and the column position `ixP e`
  (`StableHlo.Predicate.gather_take`); here it is restated over the coordinate constructors `ix1 e` and `ix2 e 0`, the form
  a value proof written with those constructors meets.
-/
import Idealize.ShloMosaic.PureOps.ShapeOps
import Idealize.ShloMosaic.Lib.ValueIdx
import Idealize.ShloMosaic.Lib.StableHlo.Predicate

namespace Idealize.ShloMosaic.GatherVec

open Idealize.ShloMosaic Idealize.ShloMosaic.ValueIdx

/-- The rank-1 index built from a coordinate is the same index however it is spelt. -/
theorem ix1_eq_ofFin {n : Nat} (e : Fin n) : (ix1 e : (⟨1, ![n]⟩ : Shape).Idx) = Shape.Idx.ofFin e := by
  funext a
  match a with
  | ⟨0, _⟩ => exact Fin.ext rfl

/-- Row `e` of an `[n, 1]` column is the index `(e, 0)`. -/
theorem ix2_zero_eq_ixP {n : Nat} (e : Fin n) :
    (ix2 e (0 : Fin 1) : (⟨2, ![n, 1]⟩ : Shape).Idx) = StableHlo.Predicate.ixP e := by
  funext a
  match a with
  | ⟨0, _⟩ => rfl
  | ⟨1, _⟩ => rfl

/-- THE ENTRY GATHER READ AT `e`. For dimension numbers over a table `[N]`, start indices `[R, 1]` and result `[R]` with
    collapsed axis 0, no batching axes, start index map `[0]` and the index vector on axis 1 (`hcoll` … `hivd`: the record's
    field values): the table at entry `idx[e, 0]`, read signed and clamped into `[0, N − 1]`. -/
theorem gather_vec {α : Type} {N R w : Nat} (d : GatherDims ⟨1, ![N]⟩ ⟨2, ![R, 1]⟩ ⟨1, ![R]⟩)
    (hcoll : d.collapsedSliceDims = [0]) (hob : d.operandBatchingDims = [])
    (hsim : d.startIndexMap = [0]) (hivd : d.indexVectorDim = 1)
    (T : (⟨1, ![N]⟩ : Shape).Idx → α) (idx : IVec ⟨2, ![R, 1]⟩ w) (e : Fin R) (hN : 0 < N) :
    Host.gather d T idx (ix1 e) = T (ix1 ⟨min (idx (ix2 e 0)).toInt.toNat (N - 1), by omega⟩) := by
  rw [ix1_eq_ofFin e, StableHlo.Predicate.gather_take d hcoll hob hsim hivd T idx e hN, ← ix1_eq_ofFin]
  refine congrArg (fun r => T (ix1 r)) (Fin.ext ?_)
  show min (idx (StableHlo.Predicate.ixP e)).toInt.toNat (N - 1) = min (idx (ix2 e 0)).toInt.toNat (N - 1)
  rw [ix2_zero_eq_ixP]

end Idealize.ShloMosaic.GatherVec
-- ==== Proof.RefValue.lean ====
/-
  The reference's result, entry by entry, as the specification's chain of the two convolutions and the dense tail.
-/
import proofs.«424020_j46316927320529_3_alg».proof.Proof.RefReadP
import proofs.«424020_j46316927320529_3_alg».proof.Proof.Msg
import proofs.«424020_j46316927320529_3_alg».proof.Proof.LibScatterAddRows
import proofs.«424020_j46316927320529_3_alg».proof.Proof.LibGatherRows
import proofs.«424020_j46316927320529_3_alg».proof.Proof.LibGatherVec
import proofs.«424020_j46316927320529_3_alg».proof.Proof.LibHostReads
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open scoped BigOperators

namespace Cert.ReferenceIdeal.Hand

open Cert.ReferenceIdeal Cert.ReferenceIdeal.Gen Cert.Gcn

/-! Two accumulating scatters, stated for the host's spelling of the operation over any record with these field values. -/

/-- Scalars accumulated into a vector by a column of indices, read at node k. -/
theorem scatterAdd_vec_at {C N w : ℕ} (d : ScatterDims ⟨1, ![C]⟩ ⟨2, ![N, 1]⟩ ⟨1, ![N]⟩)
    (wf : ScatterDims.WF ⟨1, ![C]⟩ ⟨2, ![N, 1]⟩ ⟨1, ![N]⟩ [] [0] [0] 1) (hd : d = ⟨[], [0], [0], 1, wf⟩)
    (x : (⟨1, ![C]⟩ : Shape).Idx → EReal) (idx : IVec ⟨2, ![N, 1]⟩ w) (upd : (⟨1, ![N]⟩ : Shape).Idx → EReal) (k : Fin C) :
    Host.scatterAdd (F := Ideal) (φ := .f32) d x idx upd (ix1 k)
      = x (ix1 k) + ∑ n : Fin N, if (idx (ix2 n (0 : Fin 1))).toInt = (k.val : ℤ) then upd (ix1 n) else 0 := by
  subst hd
  exact ScatterAddRows.scatterAdd_vec_apply wf x idx upd k

/-- Rows accumulated into a matrix by a column of row indices, read at (k, e). -/
theorem scatterAdd_rows_at {C D N w : ℕ} (d : ScatterDims ⟨2, ![C, D]⟩ ⟨2, ![N, 1]⟩ ⟨2, ![N, D]⟩)
    (wf : ScatterDims.WF ⟨2, ![C, D]⟩ ⟨2, ![N, 1]⟩ ⟨2, ![N, D]⟩ [1] [0] [0] 1) (hd : d = ⟨[1], [0], [0], 1, wf⟩)
    (x : (⟨2, ![C, D]⟩ : Shape).Idx → EReal) (idx : IVec ⟨2, ![N, 1]⟩ w) (upd : (⟨2, ![N, D]⟩ : Shape).Idx → EReal)
    (k : Fin C) (e : Fin D) :
    Host.scatterAdd (F := Ideal) (φ := .f32) d x idx upd (ix2 k e)
      = x (ix2 k e) + ∑ n : Fin N, if (idx (ix2 n (0 : Fin 1))).toInt = (k.val : ℤ) then upd (ix2 n e) else 0 := by
  subst hd
  exact ScatterAddRows.scatterAdd_rows_apply wf x idx upd k e

section Stages

variable (x1 : (⟨S2x800000, .i32⟩ : BufTy).Contents (Elt Ideal))

/-- The source words of the messages, as a plain function of the position. -/
abbrev srcV : (⟨1, ![900000]⟩ : Shape).Idx → BitVec 32 := ReadP.val_main_v6 (F := Ideal) x1
/-- The destination words of the messages. -/
abbrev dstV : (⟨1, ![900000]⟩ : Shape).Idx → BitVec 32 := ReadP.val_main_v7 (F := Ideal) x1
/-- The row a message's source word gathers. -/
abbrev gRow : Fin 900000 → Fin 100000 := rowOf 100000 (by decide) 100000#32 (srcV x1)
/-- The row a message's destination word gathers. -/
abbrev hRow : Fin 900000 → Fin 100000 := rowOf 100000 (by decide) 100000#32 (dstV x1)

/-! ### First layer: degree, factor, message weights -/

/-- The column of destination words the degree count scatters by. -/
theorem v10_at (n : Fin 900000) (u : Fin 1) :
    ReadP.val_main_v10 (F := Ideal) x1 (ix2 n u) = dstV x1 (ix1 n) := by
  rw [ReadP.val_main_v10_apply]
  exact congrArg _ (funext fun a => Fin.ext (by match a with | ⟨0, _⟩ => rfl))

/-- The degree count: from the zero word, one unit per destination word that hits the node. -/
theorem deg1 (k : Fin 100000) :
    ReadP.val_main_v11 (F := Ideal) x1 (ix1 k) = degOf (C := 100000) (dstV x1) k := by
  unfold ReadP.val_main_v11
  rw [scatterAdd_vec_at scatter_S100000_S900000x1_S900000_n_0_0_1 _ rfl, ReadP.val_main_v9_apply,
    ReadP.val_main_cst_0_apply, Ideal.ofBits_def]
  unfold degOf
  refine congrArg (fun s => Ideal.ofBits .f32 0x00000000#32 + s) (Finset.sum_congr rfl fun n _ => ?_)
  rw [v10_at, ReadP.val_main_v8_apply, ReadP.val_main_cst_apply, Ideal.ofBits_def]
  exact if_congr Iff.rfl rfl rfl

/-- The factor vector is the specification's factor of the degree. -/
theorem d1 (k : Fin 100000) :
    ReadP.val_main_v15 (F := Ideal) x1 (ix1 k) = dOf (C := 100000) (dstV x1) k := by
  rw [ReadP.val_main_v15_apply, ReadP.val_main_v13_apply, ReadP.val_main_v14_apply, ReadP.val_main_v12_apply,
    ReadP.val_main_cst_1_apply, ReadP.val_main_call0_v1_apply, ReadP.val_main_call0_v0_apply,
    ReadP.val_main_cst_2_apply, deg1, Ideal.ofBits_def]
  unfold dOf
  exact factor_eq _

/-- The source words wrapped for the factor's first gather. -/
theorem v20_at (n : Fin 900000) :
    ReadP.val_main_v20 (F := Ideal) x1 (ix1 n) = wrapWord 100000#32 (srcV x1 (ix1 n)) := by
  rw [ReadP.val_main_v20_apply, ReadP.val_main_v17_apply, ReadP.val_main_v19_apply, ReadP.val_main_v16_apply,
    ReadP.val_main_c_apply, ReadP.val_main_v18_apply, ReadP.val_main_c_3_apply]
  rfl

theorem v21_at (n : Fin 900000) (u : Fin 1) :
    ReadP.val_main_v21 (F := Ideal) x1 (ix2 n u) = wrapWord 100000#32 (srcV x1 (ix1 n)) := by
  rw [ReadP.val_main_v21_apply, ← v20_at]
  exact congrArg _ (funext fun a => Fin.ext (by match a with | ⟨0, _⟩ => rfl))

/-- The factor of the node a message's source word reads. -/
theorem v22_at (n : Fin 900000) :
    ReadP.val_main_v22 (F := Ideal) x1 (ix1 n) = dOf (C := 100000) (dstV x1) (gRow x1 n) := by
  unfold ReadP.val_main_v22
  rw [GatherVec.gather_vec gather_S100000_S900000x1_S900000_n_0_n_n_0_1_1 rfl rfl rfl rfl _ _ n (by decide), ← d1]
  refine congrArg (fun r => ReadP.val_main_v15 (F := Ideal) x1 (ix1 r)) (Fin.ext ?_)
  show min (ReadP.val_main_v21 (F := Ideal) x1 (ix2 n 0)).toInt.toNat (100000 - 1)
    = min (wrapWord 100000#32 (srcV x1 (ix1 n))).toInt.toNat (100000 - 1)
  rw [v21_at]

/-- The destination words wrapped for the factor's second gather. -/
theorem v27_at (n : Fin 900000) :
    ReadP.val_main_v27 (F := Ideal) x1 (ix1 n) = wrapWord 100000#32 (dstV x1 (ix1 n)) := by
  rw [ReadP.val_main_v27_apply, ReadP.val_main_v24_apply, ReadP.val_main_v26_apply, ReadP.val_main_v23_apply,
    ReadP.val_main_c_4_apply, ReadP.val_main_v25_apply, ReadP.val_main_c_5_apply]
  rfl

theorem v28_at (n : Fin 900000) (u : Fin 1) :
    ReadP.val_main_v28 (F := Ideal) x1 (ix2 n u) = wrapWord 100000#32 (dstV x1 (ix1 n)) := by
  rw [ReadP.val_main_v28_apply, ← v27_at]
  exact congrArg _ (funext fun a => Fin.ext (by match a with | ⟨0, _⟩ => rfl))

/-- The factor of the node a message's destination word reads. -/
theorem v29_at (n : Fin 900000) :
    ReadP.val_main_v29 (F := Ideal) x1 (ix1 n) = dOf (C := 100000) (dstV x1) (hRow x1 n) := by
  unfold ReadP.val_main_v29
  rw [GatherVec.gather_vec gather_S100000_S900000x1_S900000_n_0_n_n_0_1_1 rfl rfl rfl rfl _ _ n (by decide), ← d1]
  refine congrArg (fun r => ReadP.val_main_v15 (F := Ideal) x1 (ix1 r)) (Fin.ext ?_)
  show min (ReadP.val_main_v28 (F := Ideal) x1 (ix2 n 0)).toInt.toNat (100000 - 1)
    = min (wrapWord 100000#32 (dstV x1 (ix1 n))).toInt.toNat (100000 - 1)
  rw [v28_at]

/-- A message's weight: the product of its two nodes' factors. -/
theorem v30_at (n : Fin 900000) :
    ReadP.val_main_v30 (F := Ideal) x1 (ix1 n)
      = dOf (C := 100000) (dstV x1) (gRow x1 n) * dOf (C := 100000) (dstV x1) (hRow x1 n) := by
  rw [ReadP.val_main_v30_apply, Ideal.mulf_def, v22_at, v29_at]

/-- The weight laid along a message's row of eight columns. -/
theorem v39_at (n : Fin 900000) (e : Fin 8) :
    ReadP.val_main_v39 (F := Ideal) x1 (ix2 n e)
      = dOf (C := 100000) (dstV x1) (gRow x1 n) * dOf (C := 100000) (dstV x1) (hRow x1 n) := by
  rw [ReadP.val_main_v39_apply, ReadP.val_main_v38_apply, ← v30_at]
  exact congrArg _ (funext fun a => Fin.ext (by match a with | ⟨0, _⟩ => rfl))

/-- The source words wrapped for the gather of table rows. -/
theorem v35_at (n : Fin 900000) :
    ReadP.val_main_v35 (F := Ideal) x1 (ix1 n) = wrapWord 100000#32 (srcV x1 (ix1 n)) := by
  rw [ReadP.val_main_v35_apply, ReadP.val_main_v32_apply, ReadP.val_main_v34_apply, ReadP.val_main_v31_apply,
    ReadP.val_main_c_6_apply, ReadP.val_main_v33_apply, ReadP.val_main_c_7_apply]
  rfl

theorem v36_at (n : Fin 900000) (u : Fin 1) :
    ReadP.val_main_v36 (F := Ideal) x1 (ix2 n u) = wrapWord 100000#32 (srcV x1 (ix1 n)) := by
  rw [ReadP.val_main_v36_apply, ← v35_at]
  exact congrArg _ (funext fun a => Fin.ext (by match a with | ⟨0, _⟩ => rfl))

/-- The column of destination words the first convolution scatters by. -/
theorem v42_at (n : Fin 900000) (u : Fin 1) :
    ReadP.val_main_v42 (F := Ideal) x1 (ix2 n u) = dstV x1 (ix1 n) := by
  rw [ReadP.val_main_v42_apply]
  exact congrArg _ (funext fun a => Fin.ext (by match a with | ⟨0, _⟩ => rfl))

variable (x0 : (⟨S100000x128, .f32⟩ : BufTy).Contents (Elt Ideal)) (x2 : (⟨S128x8, .f32⟩ : BufTy).Contents (Elt Ideal))
  (x3 : (⟨S8, .f32⟩ : BufTy).Contents (Elt Ideal))

/-- The first product x·W1 at (i, e). -/
theorem v4_at (i : Fin 100000) (e : Fin 8) :
    ReadP.val_main_v4 (F := Ideal) x0 x2 (ix2 i e) = mm (fun i l => x0 (ix2 i l)) (fun l e => x2 (ix2 l e)) i e := by
  rw [ReadP.val_main_v4_apply]
  unfold mm
  refine Finset.sum_congr rfl fun l _ => ?_
  have el : ReadP.lidx_main_v4 (ix2 i e) l = ix2 i l :=
    funext fun a => Fin.ext (by match a with | ⟨0, _⟩ => rfl | ⟨1, _⟩ => rfl)
  have er : ReadP.ridx_main_v4 (ix2 i e) l = ix2 l e :=
    funext fun a => Fin.ext (by match a with | ⟨0, _⟩ => rfl | ⟨1, _⟩ => rfl)
  rw [el, er]

/-- The product's row a message's source word gathers. -/
theorem v37_at (n : Fin 900000) (e : Fin 8) :
    ReadP.val_main_v37 (F := Ideal) x0 x1 x2 (ix2 n e)
      = mm (fun i l => x0 (ix2 i l)) (fun l e => x2 (ix2 l e)) (gRow x1 n) e := by
  unfold ReadP.val_main_v37
  rw [GatherRows.gather_rows gather_S100000x8_S900000x1_S900000x8_1_0_n_n_0_1_18 rfl rfl rfl rfl rfl _ _ n e (by decide),
    ← v4_at]
  refine congrArg (fun r => ReadP.val_main_v4 (F := Ideal) x0 x2 (ix2 r e)) (Fin.ext ?_)
  show min (ReadP.val_main_v36 (F := Ideal) x1 (ix2 n 0)).toInt.toNat (100000 - 1)
    = min (wrapWord 100000#32 (srcV x1 (ix1 n))).toInt.toNat (100000 - 1)
  rw [v36_at]

/-- The first convolution is the specification's. -/
theorem conv1 (k : Fin 100000) (e : Fin 8) :
    ReadP.val_main_v46 (F := Ideal) x0 x1 x2 x3 (ix2 k e)
      = rC1 (hitOf (C := 100000) (dstV x1)) (gRow x1) (hRow x1) (dOf (C := 100000) (dstV x1))
          (fun i l => x0 (ix2 i l)) (fun l e => x2 (ix2 l e)) (fun e => x3 (ix1 e)) k e := by
  rw [ReadP.val_main_v46_apply, Ideal.addf_def]
  unfold ReadP.val_main_v43
  rw [scatterAdd_rows_at scatter_S100000x8_S900000x1_S900000x8_1_0_0_1 _ rfl, ReadP.val_main_v41_apply,
    ReadP.val_main_cst_8_apply, Ideal.ofBits_def, Ideal.ofBits_zero_f32, zero_add, ReadP.val_main_v45_apply,
    ReadP.val_main_v44_apply]
  unfold rC1
  have eb : ReadP.idx_main_v44 (ReadP.idx_main_v45 (ix2 k e)) = ix1 e :=
    funext fun a => Fin.ext (by match a with | ⟨0, _⟩ => rfl)
  rw [eb]
  refine congrArg (fun s => s + x3 (ix1 e)) (Finset.sum_congr rfl fun n _ => ?_)
  rw [v42_at, ReadP.val_main_v40_apply, Ideal.mulf_def, v37_at, v39_at]
  exact if_congr Iff.rfl rfl rfl

/-! ### Between the layers: the clamp at zero and the second product -/

variable (x4 : (⟨S8x256, .f32⟩ : BufTy).Contents (Elt Ideal)) (x5 : (⟨S256, .f32⟩ : BufTy).Contents (Elt Ideal))

/-- The first layer clamped at zero. -/
theorem h1_at (k : Fin 100000) (e : Fin 8) :
    ReadP.val_main_v47 (F := Ideal) x0 x1 x2 x3 (ix2 k e)
      = max (rC1 (hitOf (C := 100000) (dstV x1)) (gRow x1) (hRow x1) (dOf (C := 100000) (dstV x1)) (fun i l => x0 (ix2 i l)) (fun l e => x2 (ix2 l e)) (fun e => x3 (ix1 e)) k e) 0 := by
  rw [ReadP.val_main_v47_apply, Ideal.maximumf_def, conv1, ReadP.val_main_call1_v0_apply, ReadP.val_main_call1_cst_apply,
    Ideal.ofBits_def, Ideal.ofBits_zero_f32]

/-- The second product h1·W2 at (i, f). -/
theorem v48_at (i : Fin 100000) (f : Fin 256) :
    ReadP.val_main_v48 (F := Ideal) x0 x1 x2 x3 x4 (ix2 i f)
      = mm (fun i e => max (rC1 (hitOf (C := 100000) (dstV x1)) (gRow x1) (hRow x1) (dOf (C := 100000) (dstV x1)) (fun i l => x0 (ix2 i l)) (fun l e => x2 (ix2 l e)) (fun e => x3 (ix1 e)) i e) 0) (fun e f => x4 (ix2 e f)) i f := by
  rw [ReadP.val_main_v48_apply]
  unfold mm
  refine Finset.sum_congr rfl fun e _ => ?_
  have el : ReadP.lidx_main_v48 (ix2 i f) e = ix2 i e := funext fun a => Fin.ext (by match a with | ⟨0, _⟩ => rfl | ⟨1, _⟩ => rfl)
  have er : ReadP.ridx_main_v48 (ix2 i f) e = ix2 e f := funext fun a => Fin.ext (by match a with | ⟨0, _⟩ => rfl | ⟨1, _⟩ => rfl)
  rw [el, er, h1_at]

/-! ### Second layer: the same degree, factor and weights, computed again from the same words -/

/-- The second copy of the source words is the first. -/
theorem v50_eq : ReadP.val_main_v50 (F := Ideal) x1 = srcV x1 := rfl
/-- The second copy of the destination words is the first. -/
theorem v51_eq : ReadP.val_main_v51 (F := Ideal) x1 = dstV x1 := rfl

theorem v54_at (n : Fin 900000) (u : Fin 1) :
    ReadP.val_main_v54 (F := Ideal) x1 (ix2 n u) = dstV x1 (ix1 n) := by
  rw [ReadP.val_main_v54_apply, v51_eq]
  exact congrArg _ (funext fun a => Fin.ext (by match a with | ⟨0, _⟩ => rfl))

theorem deg2 (k : Fin 100000) :
    ReadP.val_main_v55 (F := Ideal) x1 (ix1 k) = degOf (C := 100000) (dstV x1) k := by
  unfold ReadP.val_main_v55
  rw [scatterAdd_vec_at scatter_S100000_S900000x1_S900000_n_0_0_1 _ rfl, ReadP.val_main_v53_apply,
    ReadP.val_main_cst_10_apply, Ideal.ofBits_def]
  unfold degOf
  refine congrArg (fun s => Ideal.ofBits .f32 0x00000000#32 + s) (Finset.sum_congr rfl fun n _ => ?_)
  rw [v54_at, ReadP.val_main_v52_apply, ReadP.val_main_cst_9_apply, Ideal.ofBits_def]
  exact if_congr Iff.rfl rfl rfl

theorem d2 (k : Fin 100000) :
    ReadP.val_main_v59 (F := Ideal) x1 (ix1 k) = dOf (C := 100000) (dstV x1) k := by
  rw [ReadP.val_main_v59_apply, ReadP.val_main_v57_apply, ReadP.val_main_v58_apply, ReadP.val_main_v56_apply,
    ReadP.val_main_cst_11_apply, ReadP.val_main_call2_v1_apply, ReadP.val_main_call2_v0_apply,
    ReadP.val_main_cst_12_apply, deg2, Ideal.ofBits_def]
  unfold dOf
  exact factor_eq _

theorem v64_at (n : Fin 900000) :
    ReadP.val_main_v64 (F := Ideal) x1 (ix1 n) = wrapWord 100000#32 (srcV x1 (ix1 n)) := by
  rw [ReadP.val_main_v64_apply, ReadP.val_main_v61_apply, ReadP.val_main_v63_apply, ReadP.val_main_v60_apply,
    ReadP.val_main_c_13_apply, ReadP.val_main_v62_apply, ReadP.val_main_c_14_apply, v50_eq]
  rfl

theorem v65_at (n : Fin 900000) (u : Fin 1) :
    ReadP.val_main_v65 (F := Ideal) x1 (ix2 n u) = wrapWord 100000#32 (srcV x1 (ix1 n)) := by
  rw [ReadP.val_main_v65_apply, ← v64_at]
  exact congrArg _ (funext fun a => Fin.ext (by match a with | ⟨0, _⟩ => rfl))

theorem v66_at (n : Fin 900000) :
    ReadP.val_main_v66 (F := Ideal) x1 (ix1 n) = dOf (C := 100000) (dstV x1) (gRow x1 n) := by
  unfold ReadP.val_main_v66
  rw [GatherVec.gather_vec gather_S100000_S900000x1_S900000_n_0_n_n_0_1_1 rfl rfl rfl rfl _ _ n (by decide), ← d2]
  refine congrArg (fun r => ReadP.val_main_v59 (F := Ideal) x1 (ix1 r)) (Fin.ext ?_)
  show min (ReadP.val_main_v65 (F := Ideal) x1 (ix2 n 0)).toInt.toNat (100000 - 1)
    = min (wrapWord 100000#32 (srcV x1 (ix1 n))).toInt.toNat (100000 - 1)
  rw [v65_at]

theorem v71_at (n : Fin 900000) :
    ReadP.val_main_v71 (F := Ideal) x1 (ix1 n) = wrapWord 100000#32 (dstV x1 (ix1 n)) := by
  rw [ReadP.val_main_v71_apply, ReadP.val_main_v68_apply, ReadP.val_main_v70_apply, ReadP.val_main_v67_apply,
    ReadP.val_main_c_15_apply, ReadP.val_main_v69_apply, ReadP.val_main_c_16_apply, v51_eq]
  rfl

theorem v72_at (n : Fin 900000) (u : Fin 1) :
    ReadP.val_main_v72 (F := Ideal) x1 (ix2 n u) = wrapWord 100000#32 (dstV x1 (ix1 n)) := by
  rw [ReadP.val_main_v72_apply, ← v71_at]
  exact congrArg _ (funext fun a => Fin.ext (by match a with | ⟨0, _⟩ => rfl))

theorem v73_at (n : Fin 900000) :
    ReadP.val_main_v73 (F := Ideal) x1 (ix1 n) = dOf (C := 100000) (dstV x1) (hRow x1 n) := by
  unfold ReadP.val_main_v73
  rw [GatherVec.gather_vec gather_S100000_S900000x1_S900000_n_0_n_n_0_1_1 rfl rfl rfl rfl _ _ n (by decide), ← d2]
  refine congrArg (fun r => ReadP.val_main_v59 (F := Ideal) x1 (ix1 r)) (Fin.ext ?_)
  show min (ReadP.val_main_v72 (F := Ideal) x1 (ix2 n 0)).toInt.toNat (100000 - 1)
    = min (wrapWord 100000#32 (dstV x1 (ix1 n))).toInt.toNat (100000 - 1)
  rw [v72_at]

theorem v74_at (n : Fin 900000) :
    ReadP.val_main_v74 (F := Ideal) x1 (ix1 n)
      = dOf (C := 100000) (dstV x1) (gRow x1 n) * dOf (C := 100000) (dstV x1) (hRow x1 n) := by
  rw [ReadP.val_main_v74_apply, Ideal.mulf_def, v66_at, v73_at]

/-- The weight laid along a message's row of 256 columns. -/
theorem v83_at (n : Fin 900000) (f : Fin 256) :
    ReadP.val_main_v83 (F := Ideal) x1 (ix2 n f)
      = dOf (C := 100000) (dstV x1) (gRow x1 n) * dOf (C := 100000) (dstV x1) (hRow x1 n) := by
  rw [ReadP.val_main_v83_apply, ReadP.val_main_v82_apply, ← v74_at]
  exact congrArg _ (funext fun a => Fin.ext (by match a with | ⟨0, _⟩ => rfl))

theorem v79_at (n : Fin 900000) :
    ReadP.val_main_v79 (F := Ideal) x1 (ix1 n) = wrapWord 100000#32 (srcV x1 (ix1 n)) := by
  rw [ReadP.val_main_v79_apply, ReadP.val_main_v76_apply, ReadP.val_main_v78_apply, ReadP.val_main_v75_apply,
    ReadP.val_main_c_17_apply, ReadP.val_main_v77_apply, ReadP.val_main_c_18_apply, v50_eq]
  rfl

theorem v80_at (n : Fin 900000) (u : Fin 1) :
    ReadP.val_main_v80 (F := Ideal) x1 (ix2 n u) = wrapWord 100000#32 (srcV x1 (ix1 n)) := by
  rw [ReadP.val_main_v80_apply, ← v79_at]
  exact congrArg _ (funext fun a => Fin.ext (by match a with | ⟨0, _⟩ => rfl))

theorem v86_at (n : Fin 900000) (u : Fin 1) :
    ReadP.val_main_v86 (F := Ideal) x1 (ix2 n u) = dstV x1 (ix1 n) := by
  rw [ReadP.val_main_v86_apply, v51_eq]
  exact congrArg _ (funext fun a => Fin.ext (by match a with | ⟨0, _⟩ => rfl))

/-- The second product's row a message's source word gathers. -/
theorem v81_at (n : Fin 900000) (f : Fin 256) :
    ReadP.val_main_v81 (F := Ideal) x0 x1 x2 x3 x4 (ix2 n f)
      = mm (fun i e => max (rC1 (hitOf (C := 100000) (dstV x1)) (gRow x1) (hRow x1) (dOf (C := 100000) (dstV x1)) (fun i l => x0 (ix2 i l)) (fun l e => x2 (ix2 l e)) (fun e => x3 (ix1 e)) i e) 0) (fun e f => x4 (ix2 e f)) (gRow x1 n) f := by
  unfold ReadP.val_main_v81
  rw [GatherRows.gather_rows gather_S100000x256_S900000x1_S900000x256_1_0_n_n_0_1_1256 rfl rfl rfl rfl rfl _ _ n f (by decide),
    ← v48_at]
  refine congrArg (fun r => ReadP.val_main_v48 (F := Ideal) x0 x1 x2 x3 x4 (ix2 r f)) (Fin.ext ?_)
  show min (ReadP.val_main_v80 (F := Ideal) x1 (ix2 n 0)).toInt.toNat (100000 - 1)
    = min (wrapWord 100000#32 (srcV x1 (ix1 n))).toInt.toNat (100000 - 1)
  rw [v80_at]

/-- The second convolution is the specification's. -/
theorem conv2 (k : Fin 100000) (f : Fin 256) :
    ReadP.val_main_v90 (F := Ideal) x0 x1 x2 x3 x4 x5 (ix2 k f)
      = rC2 (hitOf (C := 100000) (dstV x1)) (gRow x1) (hRow x1) (dOf (C := 100000) (dstV x1)) (fun i l => x0 (ix2 i l)) (fun l e => x2 (ix2 l e)) (fun e => x3 (ix1 e)) (fun e f => x4 (ix2 e f)) (fun f => x5 (ix1 f)) k f := by
  rw [ReadP.val_main_v90_apply, Ideal.addf_def]
  unfold ReadP.val_main_v87
  rw [scatterAdd_rows_at scatter_S100000x256_S900000x1_S900000x256_1_0_0_1 _ rfl, ReadP.val_main_v85_apply,
    ReadP.val_main_cst_19_apply, Ideal.ofBits_def, Ideal.ofBits_zero_f32, zero_add, ReadP.val_main_v89_apply,
    ReadP.val_main_v88_apply]
  unfold rC2
  have eb : ReadP.idx_main_v88 (ReadP.idx_main_v89 (ix2 k f)) = ix1 f :=
    funext fun a => Fin.ext (by match a with | ⟨0, _⟩ => rfl)
  rw [eb]
  refine congrArg (fun s => s + x5 (ix1 f)) (Finset.sum_congr rfl fun n _ => ?_)
  rw [v86_at, ReadP.val_main_v84_apply, Ideal.mulf_def, v81_at, v83_at]
  exact if_congr Iff.rfl rfl rfl

/-! ### The dense tail -/

variable (x6 : (⟨S256x256, .f32⟩ : BufTy).Contents (Elt Ideal)) (x7 : (⟨S256, .f32⟩ : BufTy).Contents (Elt Ideal))
  (x8 : (⟨S256x1, .f32⟩ : BufTy).Contents (Elt Ideal)) (x9 : (⟨S1, .f32⟩ : BufTy).Contents (Elt Ideal))

/-- A product's entry is its sum over the contracted coordinate. -/
theorem mm_def {I K J : ℕ} (a : Fin I → Fin K → EReal) (b : Fin K → Fin J → EReal) (i : Fin I) (j : Fin J) :
    mm a b i j = ∑ l, a i l * b l j := rfl

/-- The tail's first product at (k, j). -/
theorem v91_at (k : Fin 100000) (j : Fin 256) :
    ReadP.val_main_v91 (F := Ideal) x0 x1 x2 x3 x4 x5 x6 (ix2 k j)
      = mm (rC2 (hitOf (C := 100000) (dstV x1)) (gRow x1) (hRow x1) (dOf (C := 100000) (dstV x1)) (fun i l => x0 (ix2 i l)) (fun l e => x2 (ix2 l e)) (fun e => x3 (ix1 e)) (fun e f => x4 (ix2 e f)) (fun f => x5 (ix1 f))) (fun f j => x6 (ix2 f j)) k j := by
  rw [ReadP.val_main_v91_apply]
  unfold mm
  refine Finset.sum_congr rfl fun f _ => ?_
  have el : ReadP.lidx_main_v91 (ix2 k j) f = ix2 k f := funext fun a => Fin.ext (by match a with | ⟨0, _⟩ => rfl | ⟨1, _⟩ => rfl)
  have er : ReadP.ridx_main_v91 (ix2 k j) f = ix2 f j := funext fun a => Fin.ext (by match a with | ⟨0, _⟩ => rfl | ⟨1, _⟩ => rfl)
  rw [el, er, conv2]

/-- The tail's hidden layer at (k, j): the product, the bias, the clamp at zero. -/
theorem v95_at (k : Fin 100000) (j : Fin 256) :
    ReadP.val_main_v95 (F := Ideal) x0 x1 x2 x3 x4 x5 x6 x7 (ix2 k j)
      = max (mm (rC2 (hitOf (C := 100000) (dstV x1)) (gRow x1) (hRow x1) (dOf (C := 100000) (dstV x1)) (fun i l => x0 (ix2 i l)) (fun l e => x2 (ix2 l e)) (fun e => x3 (ix1 e)) (fun e f => x4 (ix2 e f)) (fun f => x5 (ix1 f))) (fun f j => x6 (ix2 f j)) k j + x7 (ix1 j)) 0 := by
  have eb : ReadP.idx_main_v92 (ReadP.idx_main_v93 (ix2 k j)) = ix1 j :=
    funext fun a => Fin.ext (by match a with | ⟨0, _⟩ => rfl)
  rw [ReadP.val_main_v95_apply, Ideal.maximumf_def, ReadP.val_main_v94_apply, Ideal.addf_def, v91_at,
    ReadP.val_main_v93_apply, ReadP.val_main_v92_apply, eb, ReadP.val_main_call3_v0_apply, ReadP.val_main_call3_cst_apply,
    Ideal.ofBits_def, Ideal.ofBits_zero_f32]

/-- The last stage at (k, q) is the dense tail of the second convolution's row k. -/
theorem v99_at (k : Fin 100000) (q : Fin 1) :
    ReadP.val_main_v99 (F := Ideal) x0 x1 x2 x3 x4 x5 x6 x7 x8 x9 (ix2 k q)
      = tail (fun f j => x6 (ix2 f j)) (fun j => x7 (ix1 j)) (fun j u => x8 (ix2 j u)) (fun u => x9 (ix1 u)) (rC2 (hitOf (C := 100000) (dstV x1)) (gRow x1) (hRow x1) (dOf (C := 100000) (dstV x1)) (fun i l => x0 (ix2 i l)) (fun l e => x2 (ix2 l e)) (fun e => x3 (ix1 e)) (fun e f => x4 (ix2 e f)) (fun f => x5 (ix1 f))) k := by
  obtain rfl : q = 0 := Subsingleton.elim _ _
  have eb : ReadP.idx_main_v97 (ReadP.idx_main_v98 (ix2 k (0 : Fin 1))) = ix1 (0 : Fin 1) :=
    funext fun a => Fin.ext (by match a with | ⟨0, _⟩ => rfl)
  rw [ReadP.val_main_v99_apply, Ideal.addf_def, ReadP.val_main_v96_apply, ReadP.val_main_v98_apply,
    ReadP.val_main_v97_apply, eb]
  unfold tail
  refine congrArg (fun s => s + x9 (ix1 (0 : Fin 1))) ?_
  refine (Finset.sum_congr rfl fun j _ => ?_).trans (mm_def _ _ _ _).symm
  have el : ReadP.lidx_main_v96 (ix2 k (0 : Fin 1)) j = ix2 k j := funext fun a => Fin.ext (by match a with | ⟨0, _⟩ => rfl | ⟨1, _⟩ => rfl)
  have er : ReadP.ridx_main_v96 (ix2 k (0 : Fin 1)) j = ix2 j (0 : Fin 1) := funext fun a => Fin.ext (by match a with | ⟨0, _⟩ => rfl | ⟨1, _⟩ => rfl)
  rw [el, er, v95_at]

end Stages

variable (m : (ℓ : Loc nD τ sig) → Buf (Elt Ideal) ℓ)

/-- The messages' source words: the edge list's first row, then one self-loop per node. -/
abbrev srcW (c : Dev nD) : (⟨1, ![900000]⟩ : Shape).Idx → BitVec 32 :=
  Cert.ReferenceIdeal.ReadP.val_main_v6 (F := Ideal) (m ((c.tc : Thread nD τ).loc main_arg1))
/-- The messages' destination words: the edge list's second row, then one self-loop per node. -/
abbrev dstW (c : Dev nD) : (⟨1, ![900000]⟩ : Shape).Idx → BitVec 32 :=
  Cert.ReferenceIdeal.ReadP.val_main_v7 (F := Ideal) (m ((c.tc : Thread nD τ).loc main_arg1))

/-- The reference's result at (k, q) is the dense tail of its second convolution's row k. -/
theorem ref_value (c : Dev nD) (k : Fin 100000) (q : Fin 1) :
    (Cert.ReferenceIdeal.ValueP.res_main_v99 (F := Ideal) m c : S100000x1.Idx → EReal) (ix2 k q)
      = tail (fun f j => (m ((c.tc : Thread nD τ).loc main_arg6) : S256x256.Idx → EReal) (ix2 f j))
          (fun j => (m ((c.tc : Thread nD τ).loc main_arg7) : S256.Idx → EReal) (ix1 j))
          (fun j u => (m ((c.tc : Thread nD τ).loc main_arg8) : S256x1.Idx → EReal) (ix2 j u))
          (fun u => (m ((c.tc : Thread nD τ).loc main_arg9) : S1.Idx → EReal) (ix1 u))
          (rC2 (hitOf (C := 100000) (dstW m c)) (rowOf 100000 (by decide) 100000#32 (srcW m c)) (rowOf 100000 (by decide) 100000#32 (dstW m c))
            (dOf (C := 100000) (dstW m c))
            (fun i l => (m ((c.tc : Thread nD τ).loc main_arg0) : S100000x128.Idx → EReal) (ix2 i l))
            (fun l e => (m ((c.tc : Thread nD τ).loc main_arg2) : S128x8.Idx → EReal) (ix2 l e))
            (fun e => (m ((c.tc : Thread nD τ).loc main_arg3) : S8.Idx → EReal) (ix1 e))
            (fun e f => (m ((c.tc : Thread nD τ).loc main_arg4) : S8x256.Idx → EReal) (ix2 e f))
            (fun f => (m ((c.tc : Thread nD τ).loc main_arg5) : S256.Idx → EReal) (ix1 f))) k := by
  rw [ReadP.val_main_v99_eq]
  exact v99_at (x0 := m ((c.tc : Thread nD τ).loc main_arg0)) (x1 := m ((c.tc : Thread nD τ).loc main_arg1))
    (x2 := m ((c.tc : Thread nD τ).loc main_arg2)) (x3 := m ((c.tc : Thread nD τ).loc main_arg3))
    (x4 := m ((c.tc : Thread nD τ).loc main_arg4)) (x5 := m ((c.tc : Thread nD τ).loc main_arg5))
    (x6 := m ((c.tc : Thread nD τ).loc main_arg6)) (x7 := m ((c.tc : Thread nD τ).loc main_arg7))
    (x8 := m ((c.tc : Thread nD τ).loc main_arg8)) (x9 := m ((c.tc : Thread nD τ).loc main_arg9)) k q

end Cert.ReferenceIdeal.Hand

end
-- ==== Proof.lean ====
/-
  A two-layer graph convolution network: the kernel program against its jnp reference, over the extended reals.

  The kernel factors the edge weight d(src) · d(dst) of the symmetric normalisation into a scale of the source rows
  before each aggregation and a scale of the aggregated row after it, and runs the three dense stages as pallas_calls;
  the reference weighs every message by the product and adds. Both end with the same dense tail. The two results are
  equal entry by entry (`Cert.Gcn.kH2_eq`): multiplication is associative, and a node's factor, being nonnegative and
  not +∞ whatever its degree, distributes over the sum of the messages. The precondition is not used.

  Here: the three frames (the kernel programs' generated; the reference's its run with the result dropped), and the
  algebraic claim from the kernel's value (`Hand.kernel_value`), the reference's (`Hand.ref_value`) and that equality,
  the two programs' message words being one term of the edge list.
-/
import proofs.«424020_j46316927320529_3_alg».proof.Defs
import proofs.«424020_j46316927320529_3_alg».proof.Proof.Gen.Kernel
import proofs.«424020_j46316927320529_3_alg».proof.Proof.Gen.Kernel.Frame
import proofs.«424020_j46316927320529_3_alg».proof.Proof.Gen.KernelIdeal
import proofs.«424020_j46316927320529_3_alg».proof.Proof.Gen.KernelIdeal.Frame
import proofs.«424020_j46316927320529_3_alg».proof.Proof.Gen.ReferenceIdeal
import proofs.«424020_j46316927320529_3_alg».proof.Proof.Gen.Pre_finite_inputs
import proofs.«424020_j46316927320529_3_alg».proof.Proof.RefRunP
import proofs.«424020_j46316927320529_3_alg».proof.Proof.RefReadP
import proofs.«424020_j46316927320529_3_alg».proof.Proof.KernelRun
import proofs.«424020_j46316927320529_3_alg».proof.Proof.KernelValue
import proofs.«424020_j46316927320529_3_alg».proof.Proof.RefValue
import proofs.«424020_j46316927320529_3_alg».proof.Proof.Spec
import proofs.«424020_j46316927320529_3_alg».proof.Proof.Msg
import Idealize.ShloMosaic.Adequacy
import Idealize.ShloMosaic.Init

set_option maxRecDepth 16384

noncomputable section

open Idealize.ShloMosaic Idealize.ShloMosaic.TcCoe Idealize.SL.Sem Idealize.ShloMosaic.ValueIdx

namespace Cert.Proof

open Cert.Gcn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The two programs build the messages' words from the edge list by the same operations. -/
theorem src_words (a1 : (⟨2, ![2, 800000]⟩ : Shape).Idx → BitVec 32) :
    Cert.ReferenceIdeal.ReadP.val_main_v6 (F := Ideal) a1 = Cert.KernelIdeal.Hand.srcT (F := Ideal) a1 := rfl
theorem dst_words (a1 : (⟨2, ![2, 800000]⟩ : Shape).Idx → BitVec 32) :
    Cert.ReferenceIdeal.ReadP.val_main_v7 (F := Ideal) a1 = Cert.KernelIdeal.Hand.dstT (F := Ideal) a1 := rfl

/-- From memories that agree on the arguments the two idealized programs end with equal results. -/
theorem algebraic : Cert.algebraic_KernelIdeal_ReferenceIdeal := by
  intro m ρ m' ρ' _ hagree
  refine ⟨fun c => Cert.KernelIdeal.Hand.resK m ρ c, Cert.KernelIdeal.GenRun.run_v38 (F := Ideal) m ρ, ?_⟩
  refine (θ_run Cert.ReferenceIdeal.defs _ _).mono (fun _ h c => ⟨(h c).1.trans ?_, (h c).2⟩)
    (Cert.ReferenceIdeal.ValueP.run (F := Ideal) m' ρ')
  funext j
  obtain ⟨k, q, rfl⟩ : ∃ (k : Fin 100000) (q : Fin 1), j = ix2 k q := ⟨j 0, j 1, eq_ix2 j⟩
  obtain ⟨h0, h1, h2, h3, h4, h5, h6, h7, h8, h9⟩ := hagree c
  refine (Cert.ReferenceIdeal.Hand.ref_value m' c k q).trans ?_
  refine Eq.trans ?_ (Cert.KernelIdeal.Hand.kernel_value m ρ c k q).symm
  unfold Cert.ReferenceIdeal.Hand.srcW Cert.ReferenceIdeal.Hand.dstW
  rw [h0, h1, h2, h3, h4, h5, h6, h7, h8, h9, src_words, dst_words]
  refine congrArg (fun h2 : Fin 100000 → Fin 256 → EReal => tail _ _ _ _ h2 k) ?_
  funext k' f
  exact (kH2_eq _ _ _ _ _ _ _ _ _ (dOf_nonneg _) (dOf_ne_top _) (fun n k hn => rowOf_of_hit (by decide) _ _ n k hn) k' f).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
